-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v4_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v15) = v2 c
          ∧ r.2.mem ((c.tc : Thread Cert.ReferenceIdeal.nD Cert.ReferenceIdeal.τ).loc Cert.ReferenceIdeal.main_v73) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x2 : Shape := ⟨2, ![65536, 2]⟩
abbrev S512x2 : Shape := ⟨2, ![512, 2]⟩
abbrev S512 : Shape := ⟨1, ![512]⟩
abbrev S512x512 : Shape := ⟨2, ![512, 512]⟩
abbrev S1x2 : Shape := ⟨2, ![1, 2]⟩
abbrev S_ : Shape := ⟨0, ![]⟩

class Facts : Prop where
  bcast_S_S65536x2 : S_.BroadcastsInDim S65536x2 (![] : Fin 0 → Fin S65536x2.rank)
  reducesTo_S65536x2_S_d0_1 : S65536x2.ReducesTo [0, 1] S_
  h_S_ : 0 < S_.numel
  bcast_S_S512x2 : S_.BroadcastsInDim S512x2 (![] : Fin 0 → Fin S512x2.rank)
  reducesTo_S512x2_S_d0_1 : S512x2.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S1x2 : S_.BroadcastsInDim S1x2 (![] : Fin 0 → Fin S1x2.rank)
  reducesTo_S1x2_S_d0_1 : S1x2.ReducesTo [0, 1] S_

variable [Facts]

def fn_part1 {F : FTy → Type} [FloatOps F] (main_arg4 : FVec F S512 .f32) (main_arg5 : FVec F S1x2 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S1x2 .f32 := Host.absf main_arg5
  let main_cst_8 : FVec F S_ .f32 := constant S_ .f32 0x7F800000#32
  let main_v25 : FVec F S1x2 .f32 := broadcastInDim S1x2 ![] bcast_S_S1x2 main_cst_8
  let main_v26 : IVec S1x2 1 := cmpf .olt main_v24 main_v25
  let main_c_9 : IVec S_ 1 := constantI S_ 1 1#1
  let main_v27 : IVec S_ 1 := (fun x v => Host.reduce IntOp.andi x v reducesTo_S1x2_S_d0_1 h_S_) main_v26 main_c_9
  let main_v28 : IVec S_ 1 := andi main_v23 main_v27
  main_v28

def fn {F : FTy → Type} [FloatOps F] (main_arg0 : FVec F S65536x2 .f32) (main_arg1 : FVec F S512x2 .f32) (main_arg2 : FVec F S512 .f32) (main_arg3 : FVec F S512x512 .f32) (main_arg4 : FVec F S512 .f32) (main_arg5 : FVec F S1x2 .f32) : IVec S_ 1 :=
  let main_v0 : FVec F S65536x2 .f32 := Host.absf main_arg0
  let main_cst : FVec F S_ .f32 := constant S_ .f32 0x7F800000#32
  let main_v1 : FVec F S65536x2 .f32 := broadcastInDim S65536x2 ![] bcast_S_S65536x2 main_cst
  let main_v2 : IVec S65536x2 1 := cmpf .olt main_v0 main_v1
  let main_c : IVec S_ 1 := constantI S_ 1 1#1
  let main_v3 : IVec S_ 1 := (fun x v => Host.reduce IntOp.andi x v reducesTo_S65536x2_S_d0_1 h_S_) main_v2 main_c
  let main_v4 : FVec F S512x2 .f32 := Host.absf main_arg1
  let main_cst_0 : FVec F S_ .f32 := constant S_ .f32 0x7F800000#32
  let main_v5 : FVec F S512x2 .f32 := broadcastInDim S512x2 ![] bcast_S_S512x2 main_cst_0
  let main_v6 : IVec S512x2 1 := cmpf .olt main_v4 main_v5
  let main_c_1 : IVec S_ 1 := constantI S_ 1 1#1
  let main_v7 : IVec S_ 1 := (fun x v => Host.reduce IntOp.andi x v reducesTo_S512x2_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_v13 main_v16
-- ==== Kernel.lean ====
abbrev S65536x2 : Shape := ⟨2, ![65536, 2]⟩
abbrev S512x2 : Shape := ⟨2, ![512, 2]⟩
abbrev S512 : Shape := ⟨1, ![512]⟩
abbrev S512x512 : Shape := ⟨2, ![512, 512]⟩
abbrev S1x2 : Shape := ⟨2, ![1, 2]⟩
abbrev S1x512 : Shape := ⟨2, ![1, 512]⟩
abbrev S65536x1 : Shape := ⟨2, ![65536, 1]⟩
abbrev S1024x2 : Shape := ⟨2, ![1024, 2]⟩
abbrev S1024x1 : Shape := ⟨2, ![1024, 1]⟩
abbrev S2x512 : Shape := ⟨2, ![2, 512]⟩
abbrev S1024x512 : Shape := ⟨2, ![1024, 512]⟩
abbrev S1024 : Shape := ⟨1, ![1024]⟩
abbrev S2x1 : Shape := ⟨2, ![2, 1]⟩
abbrev S65536 : Shape := ⟨1, ![65536]⟩

abbrev nBuf : Space → Nat
  | .hbm => 15
  | .vmem => 16
  | .smem => 0
  | _ => 0

abbrev bufTy : (tb : Table) → Fin (tcTables nBuf tb) → BufTy
  | .hbm, ⟨0, _⟩ => ⟨S65536x2, .f32⟩
  | .hbm, ⟨1, _⟩ => ⟨S512x2, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S1x2, .f32⟩
  | .hbm, ⟨6, _⟩ => ⟨S1x512, .f32⟩
  | .hbm, ⟨7, _⟩ => ⟨S1x512, .f32⟩
  | .hbm, ⟨8, _⟩ => ⟨S512x512, .bf16⟩
  | .hbm, ⟨9, _⟩ => ⟨S512x512, .bf16⟩
  | .hbm, ⟨10, _⟩ => ⟨S65536x1, .f32⟩
  | .hbm, ⟨11, _⟩ => ⟨S65536x1, .f32⟩
  | .hbm, ⟨12, _⟩ => ⟨S65536x1, .f32⟩
  | .hbm, ⟨13, _⟩ => ⟨S65536x1, .f32⟩
  | .hbm, ⟨14, _⟩ => ⟨S65536, .f32⟩
  | .local _ .vmem, ⟨0, _⟩ => ⟨S1024x2, .f32⟩
  | .local _ .vmem, ⟨1, _⟩ => ⟨S1024x2, .f32⟩
  | .local _ .vmem, ⟨2, _⟩ => ⟨S512x2, .f32⟩
  | .local _ .vmem, ⟨3, _⟩ => ⟨S1x512, .f32⟩
  | .local _ .vmem, ⟨4, _⟩ => ⟨S512x512, .bf16⟩
  | .local _ .vmem, ⟨5, _⟩ => ⟨S512x512, .bf16⟩
  | .local _ .vmem, ⟨6, _⟩ => ⟨S1x512, .f32⟩
  | .local _ .vmem, ⟨7, _⟩ => ⟨S1x2, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | _, _ => ⟨S65536x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S512_S1x512 : S512.ShapeCasts S1x512
  bitsLt_bf16_f32 : FTy.bits .bf16 < FTy.bits .f32
  transposes_S512x512_S512x512_1_0 : S512x512.Transposes [1, 0] S512x512
  inb_S1024x2_S1024x2_0_0 : ∀ a, (![0, 0] : Fin 2 → Nat) a + S1024x2.size a ≤ S1024x2.size a
  h_S1024x2 : 0 < S1024x2.numel
  inb_S512x2_S512x2_0_0 : ∀ a, (![0, 0] : Fin 2 → Nat) a + S512x2.size a ≤ S512x2.size a
  h_S512x2 : 0 < S512x2.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x2_S1x2_0_0 : ∀ a, (![0, 0] : Fin 2 → Nat) a + S1x2.size a ≤ S1x2.size a
  h_S1x2 : 0 < S1x2.numel
  transposes_S512x2_p1_0_S2x512 : S512x2.Transposes [1, 0] S2x512
  broadcasts_S1x512_S1024x512 : S1x512.Broadcasts S1024x512
  reduces_S1024x512_S1024 : S1024x512.Reduces [1] S1024
  shapeCasts_S1024_S1024x1 : S1024.ShapeCasts S1024x1
  slices_S1024x2_o0_0_S1024x1 : S1024x2.Slices ![0, 0] S1024x1
  slices_S1024x2_o0_1_S1024x1 : S1024x2.Slices ![0, 1] S1024x1
  concatenates_S1024x1_S1024x1_S1024x2_d1 : Shape.Concatenates [S1024x1, S1024x1] S1024x2 1
  reduces_S1024x2_S1024 : S1024x2.Reduces [1] S1024
  transposes_S1x2_p1_0_S2x1 : S1x2.Transposes [1, 0] S2x1
  reduces_S1024x1_S1024 : S1024x1.Reduces [1] S1024
  inb_S1024x1_S1024x1_0_0 : ∀ a, (![0, 0] : Fin 2 → Nat) a + S1024x1.size a ≤ S1024x1.size a
  h_S1024x1 : 0 < S1024x1.numel
  shapeCasts_S65536x1_S65536 : S65536x1.ShapeCasts S65536
  dot_S1024x2_S2x512_S1024x512_1_0_0_1_n_n_wf : DotDims.WF S1024x2 S2x512 S1024x512 [1] [0] [0] [1] [] []
  dot_S1024x512_S512x512_S1024x512_1_0_0_1_n_n_wf : DotDims.WF S1024x512 S512x512 S1024x512 [1] [0] [0] [1] [] []
  dot_S1024x512_S512x2_S1024x2_1_0_0_1_n_n_wf : DotDims.WF S1024x512 S512x2 S1024x2 [1] [0] [0] [1] [] []
  dot_S1024x2_S2x1_S1024x1_1_0_0_1_n_n_wf : DotDims.WF S1024x2 S2x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2.size a ≤ S65536x2.size a
  hwx0_0 : ∀ i : grid0.Coords, EltTy.bits .f32 = 32 ∨ (Rect.block (s := S65536x2) S1024x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2.size a ≤ S512x2.size a
  hwx0_1 : ∀ i : grid0.Coords, EltTy.bits .f32 = 32 ∨ (Rect.block (s := S512x2) S512x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2.size a ≤ S1x2.size a
  hwx0_6 : ∀ i : grid0.Coords, EltTy.bits .f32 = 32 ∨ (Rect.block (s := S1x2) S1x2.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1.size a ≤ S65536x1.size a
  hwx0_7 : ∀ i : grid0.Coords, EltTy.bits .f32 = 32 ∨ (Rect.block (s := S65536x1) S1024x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x1.size a ≤ S65536x1.size a
  hwx0_8 : ∀ i : grid0.Coords, EltTy.bits .f32 = 32 ∨ (Rect.block (s := S65536x1) S1024x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x1.size a ≤ S65536x1.size a
  hwx0_9 : ∀ i : grid0.Coords, EltTy.bits .f32 = 32 ∨ (Rect.block (s := S65536x1) S1024x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x1.size a ≤ S65536x1.size a
  hwx0_10 : ∀ i : grid0.Coords, EltTy.bits .f32 = 32 ∨ (Rect.block (s := S65536x1) S1024x1.size (cc0_transform_10 i) (hinb0_10 i)).WholeWords (EltTy.packing .f32)

variable [Facts₀]

def dot_S1024x2_S2x512_S1024x512_1_0_0_1_n_n : DotDims S1024x2 S2x512 S1024x512 where
  lhsContracting := [1]
  rhsContracting := [0]
  lhsNonContracting := [0]
  rhsNonContracting := [1]
  lhsBatch := []
  rhsBatch := []
  wf := dot_S1024x2_S2x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x2_S1024x2_1_0_0_1_n_n : DotDims S1024x512 S512x2 S1024x2 where
  lhsContracting := [1]
  rhsContracting := [0]
  lhsNonContracting := [0]
  rhsNonContracting := [1]
  lhsBatch := []
  rhsBatch := []
  wf := dot_S1024x512_S512x2_S1024x2_1_0_0_1_n_n_wf
def dot_S1024x2_S2x1_S1024x1_1_0_0_1_n_n : DotDims S1024x2 S2x1 S1024x1 where
  lhsContracting := [1]
  rhsContracting := [0]
  lhsNonContracting := [0]
  rhsNonContracting := [1]
  lhsBatch := []
  rhsBatch := []
  wf := dot_S1024x2_S2x1_S1024x1_1_0_0_1_n_n_wf

abbrev win0_0 : Pipeline.Window sig grid0 :=
  Pipeline.Window.ofSpec (Memref.whole main_arg0) S1024x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S1x2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4_0) S1024x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_1) S1024x1.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v4_2) S1024x1.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v4_3) S1024x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S65536x2 : Shape := ⟨2, ![65536, 2]⟩
abbrev S512x2 : Shape := ⟨2, ![512, 2]⟩
abbrev S512 : Shape := ⟨1, ![512]⟩
abbrev S512x512 : Shape := ⟨2, ![512, 512]⟩
abbrev S1x2 : Shape := ⟨2, ![1, 2]⟩
abbrev S2x512 : Shape := ⟨2, ![2, 512]⟩
abbrev S65536x512 : Shape := ⟨2, ![65536, 512]⟩
abbrev S1x512 : Shape := ⟨2, ![1, 512]⟩
abbrev S_ : Shape := ⟨0, ![]⟩
abbrev S65536 : Shape := ⟨1, ![65536]⟩
abbrev S65536x1 : Shape := ⟨2, ![65536, 1]⟩
abbrev S2x1 : Shape := ⟨2, ![2, 1]⟩

abbrev nBuf : Space → Nat
  | .hbm => 95
  | .vmem => 0
  | .smem => 0
  | _ => 0

abbrev bufTy : (tb : Table) → Fin (tcTables nBuf tb) → BufTy
  | .hbm, ⟨0, _⟩ => ⟨S65536x2, .f32⟩
  | .hbm, ⟨1, _⟩ => ⟨S512x2, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S1x2, .f32⟩
  | .hbm, ⟨6, _⟩ => ⟨S2x512, .f32⟩
  | .hbm, ⟨7, _⟩ => ⟨S65536x512, .f32⟩
  | .hbm, ⟨8, _⟩ => ⟨S1x512, .f32⟩
  | .hbm, ⟨9, _⟩ => ⟨S65536x512, .f32⟩
  | .hbm, ⟨10, _⟩ => ⟨S65536x512, .f32⟩
  | .hbm, ⟨11, _⟩ => ⟨S65536x512, .f32⟩
  | .hbm, ⟨12, _⟩ => ⟨S512x512, .f32⟩
  | .hbm, ⟨13, _⟩ => ⟨S65536x512, .f32⟩
  | .hbm, ⟨14, _⟩ => ⟨S1x512, .f32⟩
  | .hbm, ⟨15, _⟩ => ⟨S65536x512, .f32⟩
  | .hbm, ⟨16, _⟩ => ⟨S65536x512, .f32⟩
  | .hbm, ⟨17, _⟩ => ⟨S65536x512, .f32⟩
  | .hbm, ⟨18, _⟩ => ⟨S65536x512, .f32⟩
  | .hbm, ⟨19, _⟩ => ⟨S_, .f32⟩
  | .hbm, ⟨20, _⟩ => ⟨S65536, .f32⟩
  | .hbm, ⟨21, _⟩ => ⟨S_, .f32⟩
  | .hbm, ⟨22, _⟩ => ⟨S65536, .f32⟩
  | .hbm, ⟨23, _⟩ => ⟨S65536, .f32⟩
  | .hbm, ⟨24, _⟩ => ⟨S65536x512, .f32⟩
  | .hbm, ⟨25, _⟩ => ⟨S_, .f32⟩
  | .hbm, ⟨26, _⟩ => ⟨S65536x512, .f32⟩
  | .hbm, ⟨27, _⟩ => ⟨S65536x512, .f32⟩
  | .hbm, ⟨28, _⟩ => ⟨S65536x512, .f32⟩
  | .hbm, ⟨29, _⟩ => ⟨S65536x512, .f32⟩
  | .hbm, ⟨30, _⟩ => ⟨S65536x512, .f32⟩
  | .hbm, ⟨31, _⟩ => ⟨S_, .f32⟩
  | .hbm, ⟨32, _⟩ => ⟨S65536x512, .f32⟩
  | .hbm, ⟨33, _⟩ => ⟨S65536x512, .f32⟩
  | .hbm, ⟨34, _⟩ => ⟨S65536x512, .f32⟩
  | .hbm, ⟨35, _⟩ => ⟨S65536x2, .f32⟩
  | .hbm, ⟨36, _⟩ => ⟨S65536x1, .f32⟩
  | .hbm, ⟨37, _⟩ => ⟨S65536, .f32⟩
  | .hbm, ⟨38, _⟩ => ⟨S65536x1, .f32⟩
  | .hbm, ⟨39, _⟩ => ⟨S65536, .f32⟩
  | .hbm, ⟨40, _⟩ => ⟨S65536, .f32⟩
  | .hbm, ⟨41, _⟩ => ⟨S_, .f32⟩
  | .hbm, ⟨42, _⟩ => ⟨S65536, .f32⟩
  | .hbm, ⟨43, _⟩ => ⟨S65536, .f32⟩
  | .hbm, ⟨44, _⟩ => ⟨S65536x1, .f32⟩
  | .hbm, ⟨45, _⟩ => ⟨S65536, .f32⟩
  | .hbm, ⟨46, _⟩ => ⟨S_, .f32⟩
  | .hbm, ⟨47, _⟩ => ⟨S65536, .f32⟩
  | .hbm, ⟨48, _⟩ => ⟨S65536, .f32⟩
  | .hbm, ⟨49, _⟩ => ⟨S65536, .f32⟩
  | .hbm, ⟨50, _⟩ => ⟨S65536x1, .f32⟩
  | .hbm, ⟨51, _⟩ => ⟨S65536x1, .f32⟩
  | .hbm, ⟨52, _⟩ => ⟨S65536x2, .f32⟩
  | .hbm, ⟨53, _⟩ => ⟨S65536x2, .f32⟩
  | .hbm, ⟨54, _⟩ => ⟨S_, .f32⟩
  | .hbm, ⟨55, _⟩ => ⟨S65536, .f32⟩
  | .hbm, ⟨56, _⟩ => ⟨S65536x1, .f32⟩
  | .hbm, ⟨57, _⟩ => ⟨S65536x1, .f32⟩
  | .hbm, ⟨58, _⟩ => ⟨S_, .f32⟩
  | .hbm, ⟨59, _⟩ => ⟨S65536x1, .f32⟩
  | .hbm, ⟨60, _⟩ => ⟨S65536x1, .f32⟩
  | .hbm, ⟨61, _⟩ => ⟨S2x1, .f32⟩
  | .hbm, ⟨62, _⟩ => ⟨S65536x1, .f32⟩
  | .hbm, ⟨63, _⟩ => ⟨S65536x1, .f32⟩
  | .hbm, ⟨64, _⟩ => ⟨S65536x1, .f32⟩
  | .hbm, ⟨65, _⟩ => ⟨S_, .f32⟩
  | .hbm, ⟨66, _⟩ => ⟨S65536, .f32⟩
  | .hbm, ⟨67, _⟩ => ⟨S65536x1, .f32⟩
  | .hbm, ⟨68, _⟩ => ⟨S65536x1, .f32⟩
  | .hbm, ⟨69, _⟩ => ⟨S65536x1, .f32⟩
  | .hbm, ⟨70, _⟩ => ⟨S_, .f32⟩
  | .hbm, ⟨71, _⟩ => ⟨S65536x1, .f32⟩
  | .hbm, ⟨72, _⟩ => ⟨S65536x1, .f32⟩
  | .hbm, ⟨73, _⟩ => ⟨S65536x1, .f32⟩
  | .hbm, ⟨74, _⟩ => ⟨S65536x1, .f32⟩
  | .hbm, ⟨75, _⟩ => ⟨S_, .f32⟩
  | .hbm, ⟨76, _⟩ => ⟨S65536, .f32⟩
  | .hbm, ⟨77, _⟩ => ⟨S65536x1, .f32⟩
  | .hbm, ⟨78, _⟩ => ⟨S_, .f32⟩
  | .hbm, ⟨79, _⟩ => ⟨S65536x1, .f32⟩
  | .hbm, ⟨80, _⟩ => ⟨S65536x1, .f32⟩
  | .hbm, ⟨81, _⟩ => ⟨S_, .f32⟩
  | .hbm, ⟨82, _⟩ => ⟨S65536x1, .f32⟩
  | .hbm, ⟨83, _⟩ => ⟨S65536x1, .f32⟩
  | .hbm, ⟨84, _⟩ => ⟨S65536x1, .f32⟩
  | .hbm, ⟨85, _⟩ => ⟨S65536x1, .f32⟩
  | .hbm, ⟨86, _⟩ => ⟨S65536x1, .f32⟩
  | .hbm, ⟨87, _⟩ => ⟨S_, .f32⟩
  | .hbm, ⟨88, _⟩ => ⟨S65536x1, .f32⟩
  | .hbm, ⟨89, _⟩ => ⟨S65536x1, .f32⟩
  | .hbm, ⟨90, _⟩ => ⟨S65536x1, .f32⟩
  | .hbm, ⟨91, _⟩ => ⟨S_, .f32⟩
  | .hbm, ⟨92, _⟩ => ⟨S65536, .f32⟩
  | .hbm, ⟨93, _⟩ => ⟨S65536x1, .f32⟩
  | .hbm, ⟨94, _⟩ => ⟨S65536x1, .f32⟩
  | _, _ => ⟨S65536x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_7 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_8 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_9 : Ref sig .tc := ⟨.hbm, 75, rfl⟩
abbrev main_v59 : Ref sig .tc := ⟨.hbm, 76, rfl⟩
abbrev main_v60 : Ref sig .tc := ⟨.hbm, 77, rfl⟩
abbrev main_cst_10 : Ref sig .tc := ⟨.hbm, 78, rfl⟩
abbrev main_v61 : Ref sig .tc := ⟨.hbm, 79, rfl⟩
abbrev main_v62 : Ref sig .tc := ⟨.hbm, 80, rfl⟩
abbrev main_cst_11 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_12 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_13 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩

abbrev nD : Nat := 1
abbrev τ : Topo := Topo.v7x

variable {F : FTy → Type} [FloatOps F]

class Facts₀ : Prop where
  transposes_S512x2_S2x512_1_0 : S512x2.Transposes [1, 0] S2x512
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  transposes_S512x512_S512x512_1_0 : S512x512.Transposes [1, 0] S512x512
  reducesTo_S65536x512_S65536_d1 : S65536x512.ReducesTo [1] S65536
  h_S_ : 0 < S_.numel
  bcast_S_S65536 : S_.BroadcastsInDim S65536 (![] : Fin 0 → Fin S65536.rank)
  bcast_S_S65536x512 : S_.BroadcastsInDim S65536x512 (![] : Fin 0 → Fin S65536x512.rank)
  slices_S65536x2_S65536x1_0_1 : S65536x2.Slices ![0, 1] S65536x1
  shapeCasts_S65536x1_S65536 : S65536x1.ShapeCasts S65536
  slices_S65536x2_S65536x1_0_0 : S65536x2.Slices ![0, 0] S65536x1
  bcast_S65536_S65536x1_0 : S65536.BroadcastsInDim S65536x1 (![0] : Fin 1 → Fin S65536x1.rank)
  concatenates_S65536x1_S65536x1_S65536x2_d1 : Shape.Concatenates [S65536x1, S65536x1] S65536x2 1
  reducesTo_S65536x2_S65536_d1 : S65536x2.ReducesTo [1] S65536
  bcast_S_S65536x1 : S_.BroadcastsInDim S65536x1 (![] : Fin 0 → Fin S65536x1.rank)
  transposes_S1x2_S2x1_1_0 : S1x2.Transposes [1, 0] S2x1
  reducesTo_S65536x1_S65536_d1 : S65536x1.ReducesTo [1] S65536
  dot_S65536x2_S2x512_S65536x512_1_0_0_1_n_n_wf : DotDims.WF S65536x2 S2x512 S65536x512 [1] [0] [0] [1] [] []
  dot_S65536x512_S512x512_S65536x512_1_0_0_1_n_n_wf : DotDims.WF S65536x512 S512x512 S65536x512 [1] [0] [0] [1] [] []
  dot_S65536x512_S512x2_S65536x2_1_0_0_1_n_n_wf : DotDims.WF S65536x512 S512x2 S65536x2 [1] [0] [0] [1] [] []
  dot_S65536x2_S2x1_S65536x1_1_0_0_1_n_n_wf : DotDims.WF S65536x2 S2x1 S65536x1 [1] [0] [0] [1] [] []

variable [Facts₀]

def dot_S65536x2_S2x512_S65536x512_1_0_0_1_n_n : DotDims S65536x2 S2x512 S65536x512 where
  lhsContracting := [1]
  rhsContracting := [0]
  lhsNonContracting := [0]
  rhsNonContracting := [1]
  lhsBatch := []
  rhsBatch := []
  wf := dot_S65536x2_S2x512_S65536x512_1_0_0_1_n_n_wf
def dot_S65536x512_S512x512_S65536x512_1_0_0_1_n_n : DotDims S65536x512 S512x512 S65536x512 where
  lhsContracting := [1]
  rhsContracting := [0]
  lhsNonContracting := [0]
  rhsNonContracting := [1]
  lhsBatch := []
  rhsBatch := []
  wf := dot_S65536x512_S512x512_S65536x512_1_0_0_1_n_n_wf
def dot_S65536x512_S512x2_S65536x2_1_0_0_1_n_n : DotDims S65536x512 S512x2 S65536x2 where
  lhsContracting := [1]
  rhsContracting := [0]
  lhsNonContracting := [0]
  rhsNonContracting := [1]
  lhsBatch := []
  rhsBatch := []
  wf := dot_S65536x512_S512x2_S65536x2_1_0_0_1_n_n_wf
def dot_S65536x2_S2x1_S65536x1_1_0_0_1_n_n : DotDims S65536x2 S2x1 S65536x1 where
  lhsContracting := [1]
  rhsContracting := [0]
  lhsNonContracting := [0]
  rhsNonContracting := [1]
  lhsBatch := []
  rhsBatch := []
  wf := dot_S65536x2_S2x1_S65536x1_1_0_0_1_n_n_wf

class Facts : Prop extends Facts₀ where

variable [Facts]
-- ==== Proof.LibRowOps.lean ====
/-
  General index-reading lemmas at the ideal instance for kernels whose rows are independent:
  a plain [M,K]·[K,N] matrix product into a zero accumulator read at (p, j) as a sum over the contraction
  coordinate; a sum along the second axis of an [a,b] array read at row p; the keep-dims cast
  [a] → [a,1]; readers of an array's rows and entries; and a two-column concatenation [a,1] ++ [a,1] → [a,2] read at either column.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

/-- Row `p` of an [a, b] array, as a function of the column. -/
abbrev row {α : Type} {a b : Nat} (v : (⟨2, ![a, b]⟩ : Shape).Idx → α) (p : Fin a) : Fin b → α := fun k => v (ix2 p k)
/-- An [a, b] array as a function of row and column. -/
abbrev mat {α : Type} {a b : Nat} (v : (⟨2, ![a, b]⟩ : Shape).Idx → α) : Fin a → Fin b → α := fun j k => v (ix2 j k)
/-- The same array read transposed. -/
abbrev matT {α : Type} {a b : Nat} (v : (⟨2, ![a, b]⟩ : Shape).Idx → α) : Fin b → Fin a → α := fun j k => v (ix2 k j)
/-- An [a] array as a function of its coordinate. -/
abbrev vec {α : Type} {a : Nat} (v : (⟨1, ![a]⟩ : Shape).Idx → α) : Fin a → α := fun j => v (ix1 j)

/-- The left operand's index of a plain product at output (p, j) and contraction coordinate k is (p, k). -/
theorem plain_lhsIdx (M K N : Nat) (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl _ _).trans hk

/-- The right operand's index is (k, j). -/
theorem plain_rhsIdx (M K N : Nat) (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  funext a
  apply Fin.ext
  match a with
  | ⟨0, _⟩ => exact ((DotDims.plain M K N).rhsIdx_val_of_single rfl _ _).trans hk
  | ⟨1, _⟩ => rfl

/-- A plain matrix product accumulated into the zero splat, read at (p, j): the sum over the contraction
    coordinate of the left operand's row p times the right operand's column j. -/
theorem matmul_plain_zero_apply (M K N : Nat) {φ₁ φ₂ : FTy} (l : FVec Ideal ⟨2, ![M, K]⟩ φ₁)
    (r : FVec Ideal ⟨2, ![K, N]⟩ φ₂) (p : Fin M) (j : Fin N) :
    FloatOps.matmul (DotDims.plain M K N) none l r (constant ⟨2, ![M, N]⟩ .f32 0x00000000#32) (ix2 p j)
      = ∑ k : Fin K, l (ix2 p k) * r (ix2 k j) := by
  rw [Ideal.matmul_constant_zero_apply, ← Equiv.sum_comp (contrEquiv1 (DotDims.plain M K N) K rfl rfl).symm]
  refine Finset.sum_congr rfl fun k _ => ?_
  rw [plain_lhsIdx, plain_rhsIdx]

/-- A sum along the second axis of an f32 [a, b] array from the zero word, read at row p. (The zero word is stated
    equal to itself, as a printed body's reduction carries it.) -/
theorem multiReduction_add_rows {a b : Nat} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src ?_
  funext d
  apply Fin.ext
  match d with
  | ⟨0, _⟩ => rfl
  | ⟨1, _⟩ => rfl

/-- An [a] array cast to [a, 1] reads, at (p, u), the operand at p. -/
theorem shapeCast_a_a1_apply {α : Type} {a : Nat} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An [a, 1] array cast to [a] reads, at p, the operand at (p, 0). -/
theorem shapeCast_a1_a_apply {α : Type} {a : Nat} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- Two [a, 1] columns joined along the second axis: column 0 is the first piece. -/
theorem concat_cols_left {α : Type} {a : Nat} (x₁ x₂ : (⟨2, ![a, 1]⟩ : Shape).Idx → α)
    (h : Shape.Concatenates [⟨2, ![a, 1]⟩, ⟨2, ![a, 1]⟩] ⟨2, ![a, 2]⟩ 1) (p : Fin a) :
    concatenate ⟨2, ![a, 2]⟩ 1 [⟨⟨2, ![a, 1]⟩, x₁⟩, ⟨⟨2, ![a, 1]⟩, x₂⟩] h (ix2 p (0 : Fin 2)) = x₁ (ix2 p (0 : Fin 1)) :=
  concatenate_pair_apply_left 1 x₁ x₂ h _ rfl _ (fun b => by
    match b with
    | ⟨0, _⟩ => rfl
    | ⟨1, _⟩ => rfl)

/-- … and column 1 is the second piece. -/
theorem concat_cols_right {α : Type} {a : Nat} (x₁ x₂ : (⟨2, ![a, 1]⟩ : Shape).Idx → α)
    (h : Shape.Concatenates [⟨2, ![a, 1]⟩, ⟨2, ![a, 1]⟩] ⟨2, ![a, 2]⟩ 1) (p : Fin a) :
    concatenate ⟨2, ![a, 2]⟩ 1 [⟨⟨2, ![a, 1]⟩, x₁⟩, ⟨⟨2, ![a, 1]⟩, x₂⟩] h (ix2 p (1 : Fin 2)) = x₂ (ix2 p (0 : Fin 1)) :=
  concatenate_pair_apply_right 1 x₁ x₂ h _ rfl rfl _ (fun b hb => by
    match b with
    | ⟨0, _⟩ => rfl
    | ⟨1, _⟩ => exact absurd rfl hb) rfl

end Cert.RowOps

end
-- ==== Proof.Spec.lean ====
/-
  The mathematics of one batch row, on the extended reals.

  A row x ∈ E² of the state batch goes through a two-layer tanh network
      a₁ = tanh (W₁ x + b₁),  a₂ = tanh (W₂ a₁ + b₂),  V = ½ · Σⱼ a₂ⱼ²,
  whose gradient in x is taken by the chain rule, layer by layer,
      t₂ = a₂ ⊙ (1 − a₂²),  t₁ = (W₂ᵀ t₂) ⊙ (1 − a₁²),  ∇V = W₁ᵀ t₁,
  and then through the closed-form solution of a one-constraint quadratic program: with the pendulum
  drift f(x) = (x₁, g·sin x₀ − d·x₁), the Lie derivatives L_f V = ∇V·f, L_g V = ∇V₁ / I, the nominal
  control u₀ = −K·x and s = L_f V + L_g V·u₀ + 1·V,
      μ = max(s, 0) / (L_g V² + ε),  u = u₀ − μ·L_g V,  r = μ / 20,  V̇ = L_f V + L_g V·u.
  Every constant is the binary value of its f32 word; sums are finite sums of extended reals, and nothing
  here needs the entries to be finite.
-/
import Idealize.ShloMosaic.PureOps.Ideal

noncomputable section

namespace Cert.Spec

open Idealize.ShloMosaic

/-- The constants, as the words both programs print. -/
abbrev cHalf : EReal := Ideal.ofBits .f32 0x3F000000#32
abbrev cOne : EReal := Ideal.ofBits .f32 0x3F800000#32
abbrev cZero : EReal := Ideal.ofBits .f32 0x00000000#32
abbrev cGrav : EReal := Ideal.ofBits .f32 0x41157C58#32
abbrev cDamp : EReal := Ideal.ofBits .f32 0x3DC30C31#32
abbrev cInertia : EReal := Ideal.ofBits .f32 0x3F866666#32
abbrev cEps : EReal := Ideal.ofBits .f32 0x3D4CCCCD#32
abbrev cTwenty : EReal := Ideal.ofBits .f32 0x41A00000#32

/-! ## The network and its gradient -/

section Net
variable (x : Fin 2 → EReal) (W1 : Fin 512 → Fin 2 → EReal) (b1 : Fin 512 → EReal)
  (W2 : Fin 512 → Fin 512 → EReal) (W2' : Fin 512 → Fin 512 → EReal) (b2 : Fin 512 → EReal)

/-- First hidden layer. -/
def a1 (j : Fin 512) : EReal := Ideal.tanh ((∑ k : Fin 2, x k * W1 j k) + b1 j)

/-- Second hidden layer. -/
def a2 (j : Fin 512) : EReal := Ideal.tanh ((∑ k : Fin 512, a1 x W1 b1 k * W2 j k) + b2 j)

/-- The Lyapunov value: half the squared norm of the second layer. -/
def lyap : EReal := cHalf * ∑ k : Fin 512, a2 x W1 b1 W2 b2 k * a2 x W1 b1 W2 b2 k

/-- The second layer's contribution to the gradient. -/
def t2 (j : Fin 512) : EReal := a2 x W1 b1 W2 b2 j * (cOne - a2 x W1 b1 W2 b2 j * a2 x W1 b1 W2 b2 j)

/-- Pulled back through the second layer's weights (read here through a second copy `W2'` of the same
    matrix: the two programs hold it in two arrays) and the first layer's tanh. -/
def t1 (j : Fin 512) : EReal :=
  (∑ k : Fin 512, t2 x W1 b1 W2 b2 k * W2' k j) * (cOne - a1 x W1 b1 j * a1 x W1 b1 j)

/-- The gradient of V in the state. -/
def grad (d : Fin 2) : EReal := ∑ j : Fin 512, t1 x W1 b1 W2 W2' b2 j * W1 j d

end Net

/-! ## The quadratic program's closed form, from a gradient `g` and a value `v` -/

section Qp
variable (x : Fin 2 → EReal) (K : Fin 2 → EReal) (g : Fin 2 → EReal) (v : EReal)

/-- The drift's second component. -/
def drift : EReal := cGrav * Ideal.sin (x 0) - cDamp * x 1

/-- L_f V. -/
def lieF : EReal := g 0 * x 1 + g 1 * drift x

/-- L_g V. -/
def lieG : EReal := Ideal.div (g 1) cInertia

/-- The nominal control. -/
def nominal : EReal := -(∑ k : Fin 2, x k * K k)

/-- The constraint's value at the nominal control. -/
def slack : EReal := lieF x g + lieG g * nominal x K + cOne * v

/-- The multiplier. -/
def mult : EReal := Ideal.div (max (slack x K g v) cZero) (lieG g * lieG g + cEps)

/-- The control. -/
def ctrl : EReal := nominal x K - mult x K g v * lieG g

/-- The relaxation. -/
def relax : EReal := Ideal.div (mult x K g v) cTwenty

/-- V̇ along the closed loop. -/
def vdot : EReal := lieF x g + lieG g * ctrl x K g v

end Qp

end Cert.Spec

end
-- ==== Proof.KerRows.lean ====
/-
  The kernel body, one block row at a time: each value the body computes, read at row `p` of its
  [1024, ·] block, is the row function of Spec.lean applied to row `p` of the state block and to the
  weight blocks. The matrix products are sums over the contraction coordinate, the row reductions sums over
  the columns, and the layout operations (transposes, the bias rows broadcast over the block, column
  slices, the two-column join, keep-dims casts) are read at their indices.
-/
import proofs.«155033_j2001454760659_1_alg».proof.Proof.Gen.KernelIdeal.Skeleton
import proofs.«155033_j2001454760659_1_alg».proof.Proof.LibRowOps
import proofs.«155033_j2001454760659_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Rows

open Idealize.ShloMosaic Idealize.ShloMosaic.ValueIdx Cert.KernelIdeal Cert.KernelIdeal.Gen Cert.RowOps

variable (xb : Vec Ideal S1024x2 .f32) (w1 : Vec Ideal S512x2 .f32) (b1r : Vec Ideal S1x512 .f32)
  (w2c w2t : Vec Ideal S512x512 .bf16) (b2r : Vec Ideal S1x512 .f32) (kk : Vec Ideal S1x2 .f32)

/-- A [1, 512] bias row, recast to itself and broadcast over the block's rows, reads its column. -/
theorem bias_apply (b : Vec Ideal S1x512 .f32) (p : Fin 1024) (j : Fin 512) :
    broadcastTo S1024x512 (shapeCast S1x512 b shapeCasts_S1x512_S1x512) broadcasts_S1x512_S1024x512 (ix2 p j)
      = b (ix2 (0 : Fin 1) j) := by
  rw [broadcastTo_1b_ab_apply, shapeCast_self]

/-- The first hidden layer at row p. -/
theorem pay1_apply (p : Fin 1024) (j : Fin 512) :
    k0_pay1 (F := Ideal) xb w1 b1r (ix2 p j) = Spec.a1 (row xb p) (mat w1) (row b1r 0) j := by
  have hm : FloatOps.matmul (F := Ideal) (φ₁ := .f32) (φ₂ := .f32) dot_S1024x2_S2x512_S1024x512_1_0_0_1_n_n none xb
      (transpose S2x512 [1, 0] w1 transposes_S512x2_p1_0_S2x512) (constant (F := Ideal) S1024x512 .f32 0x00000000#32) (ix2 p j)
      = ∑ k : Fin 2, xb (ix2 p k) * w1 (ix2 j k) := by
    refine (matmul_plain_zero_apply 1024 2 512 xb _ p j).trans ?_
    refine Finset.sum_congr rfl fun k _ => ?_
    rw [transpose_ix2_apply]
  unfold k0_pay1 Spec.a1
  exact congrArg Ideal.tanh (congrArg₂ (· + ·) hm (bias_apply b1r p j))

/-- The second hidden layer at row p. -/
theorem pay2_apply (p : Fin 1024) (j : Fin 512) :
    k0_pay2 (F := Ideal) xb w1 b1r w2t b2r (ix2 p j)
      = Spec.a2 (row xb p) (mat w1) (row b1r 0) (matT w2t) (row b2r 0) j := by
  have hm : FloatOps.matmul (F := Ideal) (φ₁ := .bf16) (φ₂ := .bf16) dot_S1024x512_S512x512_S1024x512_1_0_0_1_n_n none
      (truncf .bf16 (k0_pay1 (F := Ideal) xb w1 b1r) bitsLt_bf16_f32)
      (shapeCast S512x512 w2t shapeCasts_S512x512_S512x512) (constant (F := Ideal) S1024x512 .f32 0x00000000#32) (ix2 p j)
      = ∑ k : Fin 512, Spec.a1 (row xb p) (mat w1) (row b1r 0) k * w2t (ix2 k j) := by
    refine (matmul_plain_zero_apply 1024 512 512 _ _ p j).trans ?_
    refine Finset.sum_congr rfl fun k _ => ?_
    rw [shapeCast_self]
    exact congrArg (· * w2t (ix2 k j)) (pay1_apply xb w1 b1r p k)
  unfold k0_pay2 Spec.a2
  exact congrArg Ideal.tanh (congrArg₂ (· + ·) hm (bias_apply b2r p j))

/-- The Lyapunov value at row p: half the sum of the second layer's squares. -/
theorem pay3_apply (p : Fin 1024) (u : Fin 1) :
    k0_pay3 (F := Ideal) xb w1 b1r w2t b2r (ix2 p u)
      = Spec.lyap (row xb p) (mat w1) (row b1r 0) (matT w2t) (row b2r 0) := by
  unfold k0_pay3 Spec.lyap
  rw [mulf_apply, shapeCast_a_a1_apply, multiReduction_add_rows]
  refine congrArg₂ (· * ·) rfl (Finset.sum_congr rfl fun k _ => ?_)
  rw [mulf_apply, pay2_apply]

/-- The second layer's gradient term at (p, k). -/
theorem t2_apply (p : Fin 1024) (k : Fin 512) :
    mulf (k0_pay2 (F := Ideal) xb w1 b1r w2t b2r)
        (subf (broadcast S1024x512 (Scalar.ofBits (F := Ideal) .f32 0x3F800000#32))
          (mulf (k0_pay2 (F := Ideal) xb w1 b1r w2t b2r) (k0_pay2 (F := Ideal) xb w1 b1r w2t b2r))) (ix2 p k)
      = Spec.t2 (row xb p) (mat w1) (row b1r 0) (matT w2t) (row b2r 0) k := by
  unfold Spec.t2
  rw [mulf_apply, subf_apply, mulf_apply, pay2_apply]
  rfl

/-- The gradient of V in the state at row p. -/
theorem pay4_apply (p : Fin 1024) (d : Fin 2) :
    k0_pay4 (F := Ideal) xb w1 b1r w2c w2t b2r (ix2 p d)
      = Spec.grad (row xb p) (mat w1) (row b1r 0) (matT w2t) (mat w2c) (row b2r 0) d := by
  unfold k0_pay4 Spec.grad
  refine (matmul_plain_zero_apply 1024 512 2 _ _ p d).trans ?_
  refine Finset.sum_congr rfl fun j _ => ?_
  refine congrArg (· * w1 (ix2 j d)) ?_
  unfold Spec.t1
  rw [mulf_apply, subf_apply, mulf_apply, pay1_apply]
  refine congrArg₂ (· * ·) ?_ rfl
  refine (matmul_plain_zero_apply 1024 512 512 _ _ p j).trans ?_
  refine Finset.sum_congr rfl fun k _ => ?_
  rw [shapeCast_self]
  exact congrArg (· * w2c (ix2 k j)) (t2_apply xb w1 b1r w2t b2r p k)

/-! ## The quadratic program's closed form, from any gradient block `g` and value block `v` -/

variable (g : FVec Ideal S1024x2 .f32) (v : FVec Ideal S1024x1 .f32)

/-- Column 0 and column 1 of the state block. -/
theorem col0_apply (p : Fin 1024) :
    extractStridedSlice S1024x1 ![0, 0] xb slices_S1024x2_o0_0_S1024x1 (ix2 p (0 : Fin 1)) = xb (ix2 p 0) :=
  slice2_axis1_apply 0 xb _ p 0 0 rfl
theorem col1_apply (x : FVec Ideal S1024x2 .f32) (p : Fin 1024) :
    extractStridedSlice S1024x1 ![0, 1] x slices_S1024x2_o0_1_S1024x1 (ix2 p (0 : Fin 1)) = x (ix2 p 1) :=
  slice2_axis1_apply 1 x _ p 0 1 rfl

/-- L_f V at row p. -/
theorem pay5_apply (p : Fin 1024) (u : Fin 1) :
    k0_pay5 (F := Ideal) xb g (ix2 p u) = Spec.lieF (row xb p) (row g p) := by
  unfold k0_pay5 Spec.lieF Spec.drift
  rw [shapeCast_a_a1_apply, multiReduction_add_rows, Fin.sum_univ_two, mulf_apply, mulf_apply, concat_cols_left,
    concat_cols_right, subf_apply, mulf_apply, mulf_apply, col1_apply]
  show g (ix2 p 0) * xb (ix2 p 1) + g (ix2 p 1) * (Spec.cGrav * Ideal.sin (extractStridedSlice S1024x1 ![0, 0] xb slices_S1024x2_o0_0_S1024x1 (ix2 p (0 : Fin 1))) - Spec.cDamp * xb (ix2 p 1)) = _
  rw [col0_apply]

/-- L_g V at row p. -/
theorem pay6_apply (p : Fin 1024) (u : Fin 1) :
    k0_pay6 (F := Ideal) g (ix2 p u) = Spec.lieG (row g p) := by
  obtain rfl : u = 0 := Subsingleton.elim _ _
  unfold k0_pay6 Spec.lieG
  rw [divf_apply, col1_apply]
  rfl

/-- The nominal control at row p: zero less the product is its negation, on every extended real. -/
theorem pay7_apply (p : Fin 1024) (u : Fin 1) :
    k0_pay7 (F := Ideal) xb kk (ix2 p u) = Spec.nominal (row xb p) (row kk 0) := by
  obtain rfl : u = 0 := Subsingleton.elim _ _
  unfold k0_pay7 Spec.nominal
  rw [subf_apply]
  have hm : FloatOps.matmul (F := Ideal) (φ₁ := .f32) (φ₂ := .f32) dot_S1024x2_S2x1_S1024x1_1_0_0_1_n_n none xb
      (transpose S2x1 [1, 0] kk transposes_S1x2_p1_0_S2x1) (constant (F := Ideal) S1024x1 .f32 0x00000000#32) (ix2 p (0 : Fin 1))
      = ∑ k : Fin 2, xb (ix2 p k) * kk (ix2 (0 : Fin 1) k) := by
    refine (matmul_plain_zero_apply 1024 2 1 xb _ p 0).trans ?_
    refine Finset.sum_congr rfl fun k _ => ?_
    rw [transpose_ix2_apply]
  show Ideal.ofBits .f32 0x00000000#32 - FloatOps.matmul (F := Ideal) (φ₁ := .f32) (φ₂ := .f32) dot_S1024x2_S2x1_S1024x1_1_0_0_1_n_n none xb
      (transpose S2x1 [1, 0] kk transposes_S1x2_p1_0_S2x1) (constant (F := Ideal) S1024x1 .f32 0x00000000#32) (ix2 p (0 : Fin 1)) = _
  rw [hm, Ideal.ofBits_zero_f32, zero_sub]

/-- A sum along the one column of a [1024, 1] block, kept as a column, is the entry. -/
theorem colsum_apply (y : FVec Ideal S1024x1 .f32) (p : Fin 1024) (u : Fin 1) :
    shapeCast S1024x1 (multiReduction .add [1] S1024 y 0x00000000#32 reduces_S1024x1_S1024 (.inl rfl) rfl) shapeCasts_S1024_S1024x1 (ix2 p u)
      = y (ix2 p 0) := by
  rw [shapeCast_a_a1_apply, multiReduction_add_rows, Fin.sum_univ_one]

/-- The multiplier at row p. -/
theorem pay8_apply (p : Fin 1024) (u : Fin 1) :
    k0_pay8 (F := Ideal) xb kk v g (ix2 p u)
      = Spec.mult (row xb p) (row kk 0) (row g p) (v (ix2 p u)) := by
  unfold k0_pay8 Spec.mult Spec.slack
  rw [divf_apply, maximumf_apply, addf_apply, addf_apply, addf_apply, colsum_apply, colsum_apply, mulf_apply, mulf_apply,
    mulf_apply, pay5_apply, pay6_apply, pay7_apply]
  rfl

/-- The control at row p. -/
theorem pay9_apply (p : Fin 1024) (u : Fin 1) :
    k0_pay9 (F := Ideal) xb kk v g (ix2 p u)
      = Spec.ctrl (row xb p) (row kk 0) (row g p) (v (ix2 p u)) := by
  unfold k0_pay9 Spec.ctrl
  rw [subf_apply, mulf_apply, pay7_apply, pay8_apply, pay6_apply]

/-- The relaxation at row p. -/
theorem pay10_apply (p : Fin 1024) (u : Fin 1) :
    k0_pay10 (F := Ideal) xb kk v g (ix2 p u)
      = Spec.relax (row xb p) (row kk 0) (row g p) (v (ix2 p u)) := by
  unfold k0_pay10 Spec.relax
  rw [divf_apply, pay8_apply]
  rfl

/-- V̇ at row p. -/
theorem pay11_apply (p : Fin 1024) (u : Fin 1) :
    k0_pay11 (F := Ideal) xb kk v g (ix2 p u)
      = Spec.vdot (row xb p) (row kk 0) (row g p) (v (ix2 p u)) := by
  obtain rfl : u = 0 := Subsingleton.elim _ _
  unfold k0_pay11 Spec.vdot
  rw [addf_apply, colsum_apply, mulf_apply, pay5_apply, pay6_apply, pay9_apply]

end Cert.KernelIdeal.Rows

end
-- ==== Proof.RefRows.lean ====
/-
  The reference program, one batch row at a time: each stage of its host computation, read at row `i`
  of its [65536, ·] array, is the row function of Spec.lean applied to row `i` of the state array and to the
  weight arrays. The generated stage lemmas read each operation at an index; what is added here is the
  composition of their index maps (a row index with a contraction coordinate, the transposes, the
  keep-dims broadcasts, the column slices flattened and rebroadcast) and the zero a host sum starts from.
-/
import proofs.«155033_j2001454760659_1_alg».proof.Proof.Gen.ReferenceIdeal.Read
import proofs.«155033_j2001454760659_1_alg».proof.Proof.LibRowOps
import proofs.«155033_j2001454760659_1_alg».proof.Proof.Spec
import Idealize.ShloMosaic.PureOps.Ideal.Laws
import Idealize.ShloMosaic.Lib.ValueIdx

noncomputable section

namespace Cert.ReferenceIdeal.Rows

open Idealize.ShloMosaic Idealize.ShloMosaic.ValueIdx Cert.ReferenceIdeal Cert.ReferenceIdeal.Read Cert.RowOps

/-- Two index functions of a rank-2 (rank-1) shape with the same coordinates are equal. -/
local macro "idx2" : tactic => `(tactic| (funext a; match a with | ⟨0, _⟩ => rfl | ⟨1, _⟩ => rfl))
local macro "idx1" : tactic => `(tactic| (funext a; match a with | ⟨0, _⟩ => rfl))

variable (x0 : FVec Ideal S65536x2 .f32) (x1 : FVec Ideal S512x2 .f32) (x2 : FVec Ideal S512 .f32)
  (x3 : FVec Ideal S512x512 .f32) (x4 : FVec Ideal S512 .f32) (x5 : FVec Ideal S1x2 .f32)

/-- A host sum's initial value, the zero word, adds nothing. -/
theorem zero_word_add (y : EReal) : (FloatOps.ofBits (F := Ideal) .f32 0x00000000#32 : EReal) + y = y := by
  show Ideal.ofBits .f32 0x00000000#32 + y = y
  rw [Ideal.ofBits_zero_f32, zero_add]

/-- The first hidden layer at row i. -/
theorem a1_apply (i : Fin 65536) (j : Fin 512) :
    val_main_v5 (F := Ideal) x0 x1 x2 (ix2 i j) = Spec.a1 (row x0 i) (mat x1) (vec x2) j := by
  rw [val_main_v5_apply, val_main_v4_apply, val_main_v1_apply, val_main_v3_apply, val_main_v2_apply]
  unfold Spec.a1
  refine congrArg Ideal.tanh (congrArg₂ (· + ·) (Finset.sum_congr rfl fun k _ => ?_) (congrArg x2 (by idx1)))
  rw [val_main_v0_apply]
  exact congrArg₂ (· * ·) (congrArg x0 (by idx2)) (congrArg x1 (by idx2))

/-- The second hidden layer at row i. -/
theorem a2_apply (i : Fin 65536) (j : Fin 512) :
    val_main_v11 (F := Ideal) x0 x1 x2 x3 x4 (ix2 i j)
      = Spec.a2 (row x0 i) (mat x1) (vec x2) (mat x3) (vec x4) j := by
  rw [val_main_v11_apply, val_main_v10_apply, val_main_v7_apply, val_main_v9_apply, val_main_v8_apply]
  unfold Spec.a2
  refine congrArg Ideal.tanh (congrArg₂ (· + ·) (Finset.sum_congr rfl fun k _ => ?_) (congrArg x4 (by idx1)))
  rw [val_main_v6_apply]
  exact congrArg₂ (· * ·) ((congrArg (val_main_v5 (F := Ideal) x0 x1 x2) (by idx2)).trans (a1_apply x0 x1 x2 i k))
    (congrArg x3 (by idx2))

/-- The Lyapunov value at row i. -/
theorem lyap_apply (i : Fin 65536) :
    val_main_v15 (F := Ideal) x0 x1 x2 x3 x4 (ix1 i)
      = Spec.lyap (row x0 i) (mat x1) (vec x2) (mat x3) (vec x4) := by
  rw [val_main_v15_apply, val_main_v14_apply, val_main_cst_0_apply, val_main_v13_apply, val_main_cst_apply, zero_word_add]
  unfold Spec.lyap
  refine congrArg₂ (· * ·) rfl (Finset.sum_congr rfl fun k _ => ?_)
  have e : idx_main_v13 (ix1 i) k = ix2 i k := by idx2
  rw [val_main_v12_apply, e, a2_apply]
  rfl

/-- The gradient of V in the state at row i. -/
theorem grad_apply (i : Fin 65536) (d : Fin 2) :
    val_main_v25 (F := Ideal) x0 x1 x2 x3 x4 (ix2 i d)
      = Spec.grad (row x0 i) (mat x1) (vec x2) (mat x3) (mat x3) (vec x4) d := by
  rw [val_main_v25_apply]
  unfold Spec.grad
  refine Finset.sum_congr rfl fun j _ => ?_
  have e1 : lidx_main_v25 (ix2 i d) j = ix2 i j := by idx2
  have e2 : ridx_main_v25 (ix2 i d) j = ix2 j d := by idx2
  rw [e1, e2, val_main_v24_apply, val_main_v23_apply, val_main_v22_apply, val_main_cst_2_apply, val_main_v21_apply,
    val_main_v20_apply, a1_apply]
  unfold Spec.t1
  refine congrArg₂ (· * ·) (congrArg₂ (· * ·) (Finset.sum_congr rfl fun k _ => ?_) rfl) rfl
  have e3 : lidx_main_v20 (ix2 i j) k = ix2 i k := by idx2
  have e4 : ridx_main_v20 (ix2 i j) k = ix2 k j := by idx2
  unfold Spec.t2
  rw [e3, e4, val_main_v19_apply, val_main_v18_apply, val_main_v17_apply, val_main_cst_1_apply, val_main_v16_apply, a2_apply]
  rfl

/-! ## The quadratic program's closed form -/

/-- The state's columns, sliced, flattened, and read at i. -/
theorem col1_apply (i : Fin 65536) : val_main_v27 (F := Ideal) x0 (ix1 i) = x0 (ix2 i 1) := by
  rw [val_main_v27_apply, val_main_v26_apply]
  exact congrArg x0 (funext fun a => Fin.ext (by
    match a with
    | ⟨0, _⟩ => exact Nat.div_one _
    | ⟨1, _⟩ => rfl))
theorem col0_apply (i : Fin 65536) : val_main_v29 (F := Ideal) x0 (ix1 i) = x0 (ix2 i 0) := by
  rw [val_main_v29_apply, val_main_v28_apply]
  exact congrArg x0 (funext fun a => Fin.ext (by
    match a with
    | ⟨0, _⟩ => exact Nat.div_one _
    | ⟨1, _⟩ => rfl))
theorem col1'_apply (i : Fin 65536) : val_main_v34 (F := Ideal) x0 (ix1 i) = x0 (ix2 i 1) := by
  rw [val_main_v34_apply, val_main_v33_apply]
  exact congrArg x0 (funext fun a => Fin.ext (by
    match a with
    | ⟨0, _⟩ => exact Nat.div_one _
    | ⟨1, _⟩ => rfl))

/-- L_f V at row i. -/
theorem lieF_apply (i : Fin 65536) (u : Fin 1) :
    val_main_v43 (F := Ideal) x0 x1 x2 x3 x4 (ix2 i u)
      = Spec.lieF (row x0 i) (row (val_main_v25 (F := Ideal) x0 x1 x2 x3 x4) i) := by
  obtain rfl : u = 0 := Subsingleton.elim _ _
  have e0 : idx_main_v42 (idx_main_v43 (ix2 i (0 : Fin 1))) 0 = ix2 i 0 := by idx2
  have e1 : idx_main_v42 (idx_main_v43 (ix2 i (0 : Fin 1))) 1 = ix2 i 1 := by idx2
  have h38 : idx_main_v38 (ix2 i (0 : Fin 1)) = ix1 i := by idx1
  have h39 : idx_main_v39 (ix2 i (0 : Fin 1)) = ix1 i := by idx1
  rw [val_main_v43_apply, val_main_v42_apply, val_main_cst_5_apply, zero_word_add, Fin.sum_univ_two, val_main_v41_apply,
    val_main_v41_apply, e0, e1]
  unfold val_main_v40 Spec.lieF Spec.drift
  rw [concat_cols_left, concat_cols_right, val_main_v38_apply, h38, col1_apply, val_main_v39_apply, h39, val_main_v37_apply,
    val_main_v32_apply, val_main_v31_apply, val_main_cst_3_apply, val_main_v30_apply, col0_apply, val_main_v36_apply,
    val_main_v35_apply, val_main_cst_4_apply, col1'_apply]
  rfl

/-- L_g V at row i. -/
theorem lieG_apply (i : Fin 65536) (u : Fin 1) :
    val_main_v46 (F := Ideal) x0 x1 x2 x3 x4 (ix2 i u)
      = Spec.lieG (row (val_main_v25 (F := Ideal) x0 x1 x2 x3 x4) i) := by
  obtain rfl : u = 0 := Subsingleton.elim _ _
  have e : idx_main_v44 (ix2 i (0 : Fin 1)) = ix2 i 1 := by idx2
  rw [val_main_v46_apply, val_main_v44_apply, val_main_v45_apply, val_main_cst_6_apply, e]
  rfl

/-- The nominal control at row i. -/
theorem nominal_apply (i : Fin 65536) (u : Fin 1) :
    val_main_v49 (F := Ideal) x0 x5 (ix2 i u) = Spec.nominal (row x0 i) (row x5 0) := by
  obtain rfl : u = 0 := Subsingleton.elim _ _
  rw [val_main_v49_apply, val_main_v48_apply]
  unfold Spec.nominal
  refine congrArg Neg.neg (Finset.sum_congr rfl fun k _ => ?_)
  rw [val_main_v47_apply]
  exact congrArg₂ (· * ·) (congrArg x0 (by idx2)) (congrArg x5 (by idx2))

/-- The multiplier at row i. -/
theorem mult_apply (i : Fin 65536) (u : Fin 1) :
    val_main_v65 (F := Ideal) x0 x1 x2 x3 x4 x5 (ix2 i u)
      = Spec.mult (row x0 i) (row x5 0) (row (val_main_v25 (F := Ideal) x0 x1 x2 x3 x4) i)
          (val_main_v15 (F := Ideal) x0 x1 x2 x3 x4 (ix1 i)) := by
  obtain rfl : u = 0 := Subsingleton.elim _ _
  have e59 : idx_main_v59 (idx_main_v60 (ix2 i (0 : Fin 1))) 0 = ix2 i 0 := by idx2
  have e51 : idx_main_v51 (idx_main_v52 (ix2 i (0 : Fin 1))) 0 = ix2 i 0 := by idx2
  have e54 : idx_main_v54 (ix2 i (0 : Fin 1)) = ix1 i := by idx1
  rw [val_main_v65_apply, val_main_v64_apply, val_main_v63_apply, val_main_cst_11_apply, val_main_v62_apply, val_main_v61_apply,
    val_main_cst_10_apply, val_main_v60_apply, val_main_v59_apply, val_main_cst_9_apply, zero_word_add, Fin.sum_univ_one, e59,
    val_main_v58_apply, val_main_v57_apply, val_main_v56_apply, val_main_v55_apply, val_main_cst_8_apply, val_main_v54_apply, e54,
    val_main_v53_apply, val_main_v52_apply, val_main_v51_apply, val_main_cst_7_apply, zero_word_add, Fin.sum_univ_one, e51,
    val_main_v50_apply, lieF_apply, lieG_apply, nominal_apply]
  rfl

/-- The control at row i. -/
theorem ctrl_apply (i : Fin 65536) (u : Fin 1) :
    val_main_v67 (F := Ideal) x0 x1 x2 x3 x4 x5 (ix2 i u)
      = Spec.ctrl (row x0 i) (row x5 0) (row (val_main_v25 (F := Ideal) x0 x1 x2 x3 x4) i)
          (val_main_v15 (F := Ideal) x0 x1 x2 x3 x4 (ix1 i)) := by
  rw [val_main_v67_apply, val_main_v66_apply, nominal_apply, mult_apply, lieG_apply]
  rfl

/-- The relaxation at row i. -/
theorem relax_apply (i : Fin 65536) (u : Fin 1) :
    val_main_v69 (F := Ideal) x0 x1 x2 x3 x4 x5 (ix2 i u)
      = Spec.relax (row x0 i) (row x5 0) (row (val_main_v25 (F := Ideal) x0 x1 x2 x3 x4) i)
          (val_main_v15 (F := Ideal) x0 x1 x2 x3 x4 (ix1 i)) := by
  rw [val_main_v69_apply, val_main_v68_apply, val_main_cst_12_apply, mult_apply]
  rfl

/-- V̇ at row i. -/
theorem vdot_apply (i : Fin 65536) (u : Fin 1) :
    val_main_v73 (F := Ideal) x0 x1 x2 x3 x4 x5 (ix2 i u)
      = Spec.vdot (row x0 i) (row x5 0) (row (val_main_v25 (F := Ideal) x0 x1 x2 x3 x4) i)
          (val_main_v15 (F := Ideal) x0 x1 x2 x3 x4 (ix1 i)) := by
  obtain rfl : u = 0 := Subsingleton.elim _ _
  have e71 : idx_main_v71 (idx_main_v72 (ix2 i (0 : Fin 1))) 0 = ix2 i 0 := by idx2
  rw [val_main_v73_apply, val_main_v72_apply, val_main_v71_apply, val_main_cst_13_apply, zero_word_add, Fin.sum_univ_one, e71,
    val_main_v70_apply, lieF_apply, lieG_apply, ctrl_apply]
  rfl

end Cert.ReferenceIdeal.Rows

end
-- ==== Proof.Agree.lean ====
/-
  Kernel and reference agree row by row. If row `p` of the kernel's state block is row `i` of the state array, and
  the kernel's weight blocks hold the weight arrays — the two bias rows as [1, 512] copies, the second layer's
  matrix twice, once as it is and once transposed — then every value the kernel stores at row `p` is the
  reference's result at row `i`: both are the same row function (Spec.lean) of the same arguments.
-/
import proofs.«155033_j2001454760659_1_alg».proof.Proof.KerRows
import proofs.«155033_j2001454760659_1_alg».proof.Proof.RefRows

noncomputable section

namespace Cert.Agree

open Idealize.ShloMosaic Idealize.ShloMosaic.ValueIdx Cert.KernelIdeal Cert.KernelIdeal.Gen Cert.RowOps
open Cert.ReferenceIdeal.Read (val_main_v15 val_main_v25 val_main_v67 val_main_v69 val_main_v73)

variable (xb : Vec Ideal S1024x2 .f32) (w1 : Vec Ideal S512x2 .f32) (b1r : Vec Ideal S1x512 .f32)
  (w2c w2t : Vec Ideal S512x512 .bf16) (b2r : Vec Ideal S1x512 .f32) (kk : Vec Ideal S1x2 .f32)
  (A0 : FVec Ideal S65536x2 .f32) (A1 : FVec Ideal S512x2 .f32) (A2 : FVec Ideal S512 .f32)
  (A3 : FVec Ideal S512x512 .f32) (A4 : FVec Ideal S512 .f32) (A5 : FVec Ideal S1x2 .f32)
  (p : Fin 1024) (i : Fin 65536)

/-- The gradient agrees. -/
theorem grad_agree (hx : ∀ k : Fin 2, xb (ix2 p k) = A0 (ix2 i k)) (hw1 : ∀ j k, w1 (ix2 j k) = A1 (ix2 j k))
    (hb1 : ∀ j, b1r (ix2 (0 : Fin 1) j) = A2 (ix1 j)) (hw2c : ∀ a b, w2c (ix2 a b) = A3 (ix2 a b))
    (hw2t : ∀ a b, w2t (ix2 a b) = A3 (ix2 b a)) (hb2 : ∀ j, b2r (ix2 (0 : Fin 1) j) = A4 (ix1 j)) (d : Fin 2) :
    k0_pay4 (F := Ideal) xb w1 b1r w2c w2t b2r (ix2 p d) = val_main_v25 (F := Ideal) A0 A1 A2 A3 A4 (ix2 i d) := by
  have hrow : row xb p = row A0 i := funext hx
  have hW1 : mat w1 = mat A1 := funext fun j => funext fun k => hw1 j k
  have hB1 : row b1r 0 = vec A2 := funext hb1
  have hW2t : matT w2t = mat A3 := funext fun j => funext fun k => hw2t k j
  have hW2c : mat w2c = mat A3 := funext fun j => funext fun k => hw2c j k
  have hB2 : row b2r 0 = vec A4 := funext hb2
  rw [Cert.KernelIdeal.Rows.pay4_apply, Cert.ReferenceIdeal.Rows.grad_apply, hrow, hW1, hB1, hW2t, hW2c, hB2]

/-- The Lyapunov value agrees. -/
theorem lyap_agree (hx : ∀ k : Fin 2, xb (ix2 p k) = A0 (ix2 i k)) (hw1 : ∀ j k, w1 (ix2 j k) = A1 (ix2 j k))
    (hb1 : ∀ j, b1r (ix2 (0 : Fin 1) j) = A2 (ix1 j))
    (hw2t : ∀ a b, w2t (ix2 a b) = A3 (ix2 b a)) (hb2 : ∀ j, b2r (ix2 (0 : Fin 1) j) = A4 (ix1 j)) (u : Fin 1) :
    k0_pay3 (F := Ideal) xb w1 b1r w2t b2r (ix2 p u) = val_main_v15 (F := Ideal) A0 A1 A2 A3 A4 (ix1 i) := by
  have hrow : row xb p = row A0 i := funext hx
  have hW1 : mat w1 = mat A1 := funext fun j => funext fun k => hw1 j k
  have hB1 : row b1r 0 = vec A2 := funext hb1
  have hW2t : matT w2t = mat A3 := funext fun j => funext fun k => hw2t k j
  have hB2 : row b2r 0 = vec A4 := funext hb2
  rw [Cert.KernelIdeal.Rows.pay3_apply, Cert.ReferenceIdeal.Rows.lyap_apply, hrow, hW1, hB1, hW2t, hB2]

section Outputs
variable (hx : ∀ k : Fin 2, xb (ix2 p k) = A0 (ix2 i k)) (hw1 : ∀ j k, w1 (ix2 j k) = A1 (ix2 j k))
    (hb1 : ∀ j, b1r (ix2 (0 : Fin 1) j) = A2 (ix1 j)) (hw2c : ∀ a b, w2c (ix2 a b) = A3 (ix2 a b))
    (hw2t : ∀ a b, w2t (ix2 a b) = A3 (ix2 b a)) (hb2 : ∀ j, b2r (ix2 (0 : Fin 1) j) = A4 (ix1 j))
    (hk : ∀ k, kk (ix2 (0 : Fin 1) k) = A5 (ix2 (0 : Fin 1) k)) (u : Fin 1)
include hx hw1 hb1 hw2c hw2t hb2 hk

/-- The control agrees. -/
theorem ctrl_agree :
    k0_pay9 (F := Ideal) xb kk (k0_pay3 (F := Ideal) xb w1 b1r w2t b2r) (k0_pay4 (F := Ideal) xb w1 b1r w2c w2t b2r) (ix2 p u)
      = val_main_v67 (F := Ideal) A0 A1 A2 A3 A4 A5 (ix2 i u) := by
  have hrow : row xb p = row A0 i := funext hx
  have hK : row kk 0 = row A5 0 := funext hk
  have hg : row (k0_pay4 (F := Ideal) xb w1 b1r w2c w2t b2r) p = row (val_main_v25 (F := Ideal) A0 A1 A2 A3 A4) i :=
    funext fun d => grad_agree xb w1 b1r w2c w2t b2r A0 A1 A2 A3 A4 p i hx hw1 hb1 hw2c hw2t hb2 d
  rw [Cert.KernelIdeal.Rows.pay9_apply, Cert.ReferenceIdeal.Rows.ctrl_apply, hrow, hK, hg,
    lyap_agree xb w1 b1r w2t b2r A0 A1 A2 A3 A4 p i hx hw1 hb1 hw2t hb2 u]

/-- The relaxation agrees. -/
theorem relax_agree :
    k0_pay10 (F := Ideal) xb kk (k0_pay3 (F := Ideal) xb w1 b1r w2t b2r) (k0_pay4 (F := Ideal) xb w1 b1r w2c w2t b2r) (ix2 p u)
      = val_main_v69 (F := Ideal) A0 A1 A2 A3 A4 A5 (ix2 i u) := by
  have hrow : row xb p = row A0 i := funext hx
  have hK : row kk 0 = row A5 0 := funext hk
  have hg : row (k0_pay4 (F := Ideal) xb w1 b1r w2c w2t b2r) p = row (val_main_v25 (F := Ideal) A0 A1 A2 A3 A4) i :=
    funext fun d => grad_agree xb w1 b1r w2c w2t b2r A0 A1 A2 A3 A4 p i hx hw1 hb1 hw2c hw2t hb2 d
  rw [Cert.KernelIdeal.Rows.pay10_apply, Cert.ReferenceIdeal.Rows.relax_apply, hrow, hK, hg,
    lyap_agree xb w1 b1r w2t b2r A0 A1 A2 A3 A4 p i hx hw1 hb1 hw2t hb2 u]

/-- V̇ agrees. -/
theorem vdot_agree :
    k0_pay11 (F := Ideal) xb kk (k0_pay3 (F := Ideal) xb w1 b1r w2t b2r) (k0_pay4 (F := Ideal) xb w1 b1r w2c w2t b2r) (ix2 p u)
      = val_main_v73 (F := Ideal) A0 A1 A2 A3 A4 A5 (ix2 i u) := by
  have hrow : row xb p = row A0 i := funext hx
  have hK : row kk 0 = row A5 0 := funext hk
  have hg : row (k0_pay4 (F := Ideal) xb w1 b1r w2c w2t b2r) p = row (val_main_v25 (F := Ideal) A0 A1 A2 A3 A4) i :=
    funext fun d => grad_agree xb w1 b1r w2c w2t b2r A0 A1 A2 A3 A4 p i hx hw1 hb1 hw2c hw2t hb2 d
  rw [Cert.KernelIdeal.Rows.pay11_apply, Cert.ReferenceIdeal.Rows.vdot_apply, hrow, hK, hg,
    lyap_agree xb w1 b1r w2t b2r A0 A1 A2 A3 A4 p i hx hw1 hb1 hw2t hb2 u]

end Outputs

end Cert.Agree

end
-- ==== Proof.Blocks.lean ====
/-
  From blocks to arrays. The kernel's grid has 64 points; at point t every output window writes back rows
  1024·t … 1024·t + 1023 of its [65536, 1] array, computed from rows 1024·t … of the state array and from the
  whole weight arrays (the host lines before the call having recast the two biases to [1, 512] and copied the
  second layer's matrix twice, as it is and transposed). So row 1024·t + p of each output array is the
  reference's result at that row (Agree.lean), the 64 blocks tile the array, and each output array ends
  holding the reference's stage function of the argument arrays; the host line after the call flattens the
  Lyapunov column to [65536].
-/
import proofs.«155033_j2001454760659_1_alg».proof.Proof.Gen.KernelIdeal.Frame
import proofs.«155033_j2001454760659_1_alg».proof.Proof.Agree
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

namespace Cert.KernelIdeal.Blocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Idealize.ShloMosaic.StableHlo
open Cert.KernelIdeal Cert.KernelIdeal.Gen Cert.RowOps
open Cert.ReferenceIdeal.Read (val_main_v15 val_main_v67 val_main_v69 val_main_v73)

variable (m : (ℓ : Loc nD τ sig) → Buf (Elt Ideal) ℓ) (ρ : Dev nD → PrngReg)

/-! ## The argument arrays, and the arrays the host lines before the call write -/

abbrev A0 (c : Dev nD) : FVec Ideal S65536x2 .f32 := m ((c.tc : Thread nD τ).loc main_arg0)
abbrev A1 (c : Dev nD) : FVec Ideal S512x2 .f32 := m ((c.tc : Thread nD τ).loc main_arg1)
abbrev A2 (c : Dev nD) : FVec Ideal S512 .f32 := m ((c.tc : Thread nD τ).loc main_arg2)
abbrev A3 (c : Dev nD) : FVec Ideal S512x512 .f32 := m ((c.tc : Thread nD τ).loc main_arg3)
abbrev A4 (c : Dev nD) : FVec Ideal S512 .f32 := m ((c.tc : Thread nD τ).loc main_arg4)
abbrev A5 (c : Dev nD) : FVec Ideal S1x2 .f32 := m ((c.tc : Thread nD τ).loc main_arg5)

/-- The first bias as the call finds it: recast to one row. -/
theorem V_bias1 (c : Dev nD) :
    (V m c main_v0 : S1x512.Idx → EReal) = shapeCast S1x512 (A2 m c) shapeCasts_S512_S1x512 := by
  show StableHlo.after hostOps0 (fun b => m (c, b)) (Proc.devRef .tc main_v0) = _
  after_results
  rfl
/-- The second bias likewise. -/
theorem V_bias2 (c : Dev nD) :
    (V m c main_v1 : S1x512.Idx → EReal) = shapeCast S1x512 (A4 m c) shapeCasts_S512_S1x512 := by
  show StableHlo.after hostOps0 (fun b => m (c, b)) (Proc.devRef .tc main_v1) = _
  after_results
  rfl
/-- The second layer's matrix, copied in the narrower format (the same numbers). -/
theorem V_w2 (c : Dev nD) :
    (V m c main_v2 : S512x512.Idx → EReal) = truncf (F := Ideal) .bf16 (A3 m c) bitsLt_bf16_f32 := by
  show StableHlo.after hostOps0 (fun b => m (c, b)) (Proc.devRef .tc main_v2) = _
  after_results
/-- … and that copy transposed. -/
theorem V_w2t (c : Dev nD) :
    (V m c main_v3 : S512x512.Idx → EReal)
      = transpose S512x512 [1, 0] (truncf (F := Ideal) .bf16 (A3 m c) bitsLt_bf16_f32) transposes_S512x512_S512x512_1_0 := by
  show StableHlo.after hostOps0 (fun b => m (c, b)) (Proc.devRef .tc main_v3) = _
  after_results

/-! ## The windows' blocks -/

theorem hz : (![0, 0] : Fin 2 → Nat) = fun _ => 0 := funext fun a => by fin_cases a <;> rfl

/-- The printed index maps, decided over the 64 points: the state window and the four output windows are at
    block (t, 0), the weight windows at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

/-- Row 1024·t + p of a [65536, ·] array. -/
abbrev rowOf (t : Fin cfg0.N) (p : Fin 1024) : Fin 65536 :=
  ⟨t.val * 1024 + p.val, by have := t.isLt; have hN : cfg0.N = 64 := N_0; have := p.isLt; omega⟩

/-- The state window's block at point t is rows 1024·t … of the state array. -/
theorem blk_state (c : Dev nD) (t : Fin cfg0.N) (p : Fin 1024) (k : Fin 2) :
    (iblk m c 0 t : Vec Ideal S1024x2 .f32) (ix2 p k) = A0 m c (ix2 (rowOf t p) k) := by
  obtain ⟨e0, e1, -⟩ := idx_facts t
  unfold iblk
  rw [View.read_apply]
  show V m c main_arg0 _ = _
  rw [V_main_arg0]
  refine congrArg (A0 m c) (funext fun a => Fin.ext ?_)
  match a with
  | ⟨0, _⟩ => show win0_0.index t (0 : Fin 2) * 1024 + 1 * p.val = t.val * 1024 + p.val; rw [e0]; omega
  | ⟨1, _⟩ => show win0_0.index t (1 : Fin 2) * 2 + 1 * k.val = k.val; rw [e1]; omega

/-- The first layer's weight block is the whole array. -/
theorem blk_w1 (c : Dev nD) (t : Fin cfg0.N) (j : Fin 512) (k : Fin 2) :
    (iblk m c 1 t : Vec Ideal S512x2 .f32) (ix2 j k) = A1 m c (ix2 j k) := by
  obtain ⟨-, -, e0, e1, -⟩ := idx_facts t
  unfold iblk
  rw [View.read_apply]
  show V m c main_arg1 _ = _
  rw [V_main_arg1]
  refine congrArg (A1 m c) (funext fun a => Fin.ext ?_)
  match a with
  | ⟨0, _⟩ => show win0_1.index t (0 : Fin 2) * 512 + 1 * j.val = j.val; rw [e0]; omega
  | ⟨1, _⟩ => show win0_1.index t (1 : Fin 2) * 2 + 1 * k.val = k.val; rw [e1]; omega

/-- The first bias block's one row is the bias. -/
theorem blk_b1 (c : Dev nD) (t : Fin cfg0.N) (j : Fin 512) :
    (iblk m c 2 t : Vec Ideal S1x512 .f32) (ix2 (0 : Fin 1) j) = A2 m c (ix1 j) := by
  obtain ⟨-, -, -, -, e0, e1, -⟩ := idx_facts t
  unfold iblk
  rw [View.read_apply]
  show V m c main_v0 _ = _
  rw [V_bias1]
  refine Eq.trans (congrArg _ (funext fun a => Fin.ext ?_)) (shapeCast_a_1a_apply (A2 m c) shapeCasts_S512_S1x512 (0 : Fin 1) j)
  match a with
  | ⟨0, _⟩ => show win0_2.index t (0 : Fin 2) * 1 + 1 * 0 = 0; rw [e0]
  | ⟨1, _⟩ => show win0_2.index t (1 : Fin 2) * 512 + 1 * j.val = j.val; rw [e1]; omega

/-- The second layer's matrix block, as it is. -/
theorem blk_w2 (c : Dev nD) (t : Fin cfg0.N) (a b : Fin 512) :
    (iblk m c 3 t : Vec Ideal S512x512 .bf16) (ix2 a b) = A3 m c (ix2 a b) := by
  obtain ⟨-, -, -, -, -, -, e0, e1, -⟩ := idx_facts t
  unfold iblk
  rw [View.read_apply]
  show V m c main_v2 _ = _
  rw [V_w2]
  refine congrArg (A3 m c) (funext fun d => Fin.ext ?_)
  match d with
  | ⟨0, _⟩ => show win0_3.index t (0 : Fin 2) * 512 + 1 * a.val = a.val; rw [e0]; omega
  | ⟨1, _⟩ => show win0_3.index t (1 : Fin 2) * 512 + 1 * b.val = b.val; rw [e1]; omega

/-- The second layer's matrix block, transposed. -/
theorem blk_w2t (c : Dev nD) (t : Fin cfg0.N) (a b : Fin 512) :
    (iblk m c 4 t : Vec Ideal S512x512 .bf16) (ix2 a b) = A3 m c (ix2 b a) := by
  obtain ⟨-, -, -, -, -, -, -, -, e0, e1, -⟩ := idx_facts t
  unfold iblk
  rw [View.read_apply]
  show V m c main_v3 _ = _
  rw [V_w2t]
  refine Eq.trans (congrArg _ (funext fun d => Fin.ext ?_))
    (transpose_ix2_apply (truncf (F := Ideal) .bf16 (A3 m c) bitsLt_bf16_f32) transposes_S512x512_S512x512_1_0 a b)
  match d with
  | ⟨0, _⟩ => show win0_4.index t (0 : Fin 2) * 512 + 1 * a.val = a.val; rw [e0]; omega
  | ⟨1, _⟩ => show win0_4.index t (1 : Fin 2) * 512 + 1 * b.val = b.val; rw [e1]; omega

/-- The second bias block's one row is the bias. -/
theorem blk_b2 (c : Dev nD) (t : Fin cfg0.N) (j : Fin 512) :
    (iblk m c 5 t : Vec Ideal S1x512 .f32) (ix2 (0 : Fin 1) j) = A4 m c (ix1 j) := by
  obtain ⟨-, -, -, -, -, -, -, -, -, -, e0, e1, -⟩ := idx_facts t
  unfold iblk
  rw [View.read_apply]
  show V m c main_v1 _ = _
  rw [V_bias2]
  refine Eq.trans (congrArg _ (funext fun a => Fin.ext ?_)) (shapeCast_a_1a_apply (A4 m c) shapeCasts_S512_S1x512 (0 : Fin 1) j)
  match a with
  | ⟨0, _⟩ => show win0_5.index t (0 : Fin 2) * 1 + 1 * 0 = 0; rw [e0]
  | ⟨1, _⟩ => show win0_5.index t (1 : Fin 2) * 512 + 1 * j.val = j.val; rw [e1]; omega

/-- The gain block is the gain. -/
theorem blk_gain (c : Dev nD) (t : Fin cfg0.N) (k : Fin 2) :
    (iblk m c 6 t : Vec Ideal S1x2 .f32) (ix2 (0 : Fin 1) k) = A5 m c (ix2 (0 : Fin 1) k) := by
  obtain ⟨-, -, -, -, -, -, -, -, -, -, -, -, e0, e1, -⟩ := idx_facts t
  unfold iblk
  rw [View.read_apply]
  show V m c main_arg5 _ = _
  rw [V_main_arg5]
  refine congrArg (A5 m c) (funext fun a => Fin.ext ?_)
  match a with
  | ⟨0, _⟩ => show win0_6.index t (0 : Fin 2) * 1 + 1 * 0 = 0; rw [e0]
  | ⟨1, _⟩ => show win0_6.index t (1 : Fin 2) * 2 + 1 * k.val = k.val; rw [e1]; omega

/-! ## What each point writes back, and the arrays after the run -/

/-- What the output arrays end holding: the reference's stage functions of the argument arrays (the Lyapunov column as
    a [65536, 1] array of the [65536] values). -/
abbrev Gctrl (c : Dev nD) : S65536x1.Idx → EReal :=
  val_main_v67 (F := Ideal) (A0 m c) (A1 m c) (A2 m c) (A3 m c) (A4 m c) (A5 m c)
abbrev Grelax (c : Dev nD) : S65536x1.Idx → EReal :=
  val_main_v69 (F := Ideal) (A0 m c) (A1 m c) (A2 m c) (A3 m c) (A4 m c) (A5 m c)
abbrev Glyap (c : Dev nD) : S65536x1.Idx → EReal :=
  fun y => val_main_v15 (F := Ideal) (A0 m c) (A1 m c) (A2 m c) (A3 m c) (A4 m c) (ix1 (y 0))
abbrev Gvdot (c : Dev nD) : S65536x1.Idx → EReal :=
  val_main_v73 (F := Ideal) (A0 m c) (A1 m c) (A2 m c) (A3 m c) (A4 m c) (A5 m c)

/-- The control window's write-back at point t is block t of the reference's control. -/
theorem flushed_ctrl (c : Dev nD) (t : Fin cfg0.N) :
    (dats m 0 c).flushed 7 t = ((cfg0.win 7).blk t).view.read (Elt Ideal) (Gctrl m c) := by
  obtain ⟨-, -, -, -, -, -, -, -, -, -, -, -, -, -, e0, e1, -⟩ := idx_facts t
  show (cfg0.win 7).cut (grid0.coords t) ((dats m 0 c).after 7 t) = _
  rw [after0_7]
  unfold out0_7
  rw [View.canon_unit_zero hz]
  simp only [View.ld_unit_zero (S := S1024x2) hz, View.ld_unit_zero (S := S512x2) hz, View.ld_unit_zero (S := S1x512) hz,
    View.ld_unit_zero (S := S512x512) hz, View.ld_unit_zero (S := S1x2) hz]
  funext y
  obtain ⟨p, u, rfl⟩ : ∃ (p : Fin 1024) (u : Fin 1), y = ix2 p u := ⟨y 0, y 1, eq_ix2 y⟩
  rw [View.read_apply]
  refine (Cert.Agree.ctrl_agree (iblk m c 0 t) (iblk m c 1 t) (iblk m c 2 t) (iblk m c 3 t) (iblk m c 4 t) (iblk m c 5 t)
    (iblk m c 6 t) (A0 m c) (A1 m c) (A2 m c) (A3 m c) (A4 m c) (A5 m c) p (rowOf t p) (blk_state m c t p) (blk_w1 m c t)
    (blk_b1 m c t) (blk_w2 m c t) (blk_w2t m c t) (blk_b2 m c t) (blk_gain m c t) u).trans ?_
  refine congrArg (Gctrl m c) (funext fun a => Fin.ext ?_)
  match a with
  | ⟨0, _⟩ => show t.val * 1024 + p.val = win0_7.index t (0 : Fin 2) * 1024 + 1 * p.val; rw [e0]; omega
  | ⟨1, _⟩ => show u.val = win0_7.index t (1 : Fin 2) * 1 + 1 * u.val; rw [e1]; omega

/-- The relaxation window's write-back. -/
theorem flushed_relax (c : Dev nD) (t : Fin cfg0.N) :
    (dats m 0 c).flushed 8 t = ((cfg0.win 8).blk t).view.read (Elt Ideal) (Grelax m c) := by
  obtain ⟨-, -, -, -, -, -, -, -, -, -, -, -, -, -, -, -, e0, e1, -⟩ := idx_facts t
  show (cfg0.win 8).cut (grid0.coords t) ((dats m 0 c).after 8 t) = _
  rw [after0_8]
  unfold out0_8
  rw [View.canon_unit_zero hz]
  simp only [View.ld_unit_zero (S := S1024x2) hz, View.ld_unit_zero (S := S512x2) hz, View.ld_unit_zero (S := S1x512) hz,
    View.ld_unit_zero (S := S512x512) hz, View.ld_unit_zero (S := S1x2) hz]
  funext y
  obtain ⟨p, u, rfl⟩ : ∃ (p : Fin 1024) (u : Fin 1), y = ix2 p u := ⟨y 0, y 1, eq_ix2 y⟩
  rw [View.read_apply]
  refine (Cert.Agree.relax_agree (iblk m c 0 t) (iblk m c 1 t) (iblk m c 2 t) (iblk m c 3 t) (iblk m c 4 t) (iblk m c 5 t)
    (iblk m c 6 t) (A0 m c) (A1 m c) (A2 m c) (A3 m c) (A4 m c) (A5 m c) p (rowOf t p) (blk_state m c t p) (blk_w1 m c t)
    (blk_b1 m c t) (blk_w2 m c t) (blk_w2t m c t) (blk_b2 m c t) (blk_gain m c t) u).trans ?_
  refine congrArg (Grelax m c) (funext fun a => Fin.ext ?_)
  match a with
  | ⟨0, _⟩ => show t.val * 1024 + p.val = win0_8.index t (0 : Fin 2) * 1024 + 1 * p.val; rw [e0]; omega
  | ⟨1, _⟩ => show u.val = win0_8.index t (1 : Fin 2) * 1 + 1 * u.val; rw [e1]; omega

/-- The Lyapunov window's write-back. -/
theorem flushed_lyap (c : Dev nD) (t : Fin cfg0.N) :
    (dats m 0 c).flushed 9 t = ((cfg0.win 9).blk t).view.read (Elt Ideal) (Glyap m c) := by
  obtain ⟨-, -, -, -, -, -, -, -, -, -, -, -, -, -, -, -, -, -, e0, e1, -⟩ := idx_facts t
  show (cfg0.win 9).cut (grid0.coords t) ((dats m 0 c).after 9 t) = _
  rw [after0_9]
  unfold out0_9
  rw [View.canon_unit_zero hz]
  simp only [View.ld_unit_zero (S := S1024x2) hz, View.ld_unit_zero (S := S512x2) hz, View.ld_unit_zero (S := S1x512) hz,
    View.ld_unit_zero (S := S512x512) hz]
  funext y
  obtain ⟨p, u, rfl⟩ : ∃ (p : Fin 1024) (u : Fin 1), y = ix2 p u := ⟨y 0, y 1, eq_ix2 y⟩
  rw [View.read_apply]
  refine (Cert.Agree.lyap_agree (iblk m c 0 t) (iblk m c 1 t) (iblk m c 2 t) (iblk m c 4 t) (iblk m c 5 t)
    (A0 m c) (A1 m c) (A2 m c) (A3 m c) (A4 m c) p (rowOf t p) (blk_state m c t p) (blk_w1 m c t)
    (blk_b1 m c t) (blk_w2t m c t) (blk_b2 m c t) u).trans ?_
  show val_main_v15 (F := Ideal) (A0 m c) (A1 m c) (A2 m c) (A3 m c) (A4 m c) (ix1 (rowOf t p)) = val_main_v15 (F := Ideal) (A0 m c) (A1 m c) (A2 m c) (A3 m c) (A4 m c) (ix1 _)
  refine congrArg (fun q => val_main_v15 (F := Ideal) (A0 m c) (A1 m c) (A2 m c) (A3 m c) (A4 m c) (ix1 q)) (Fin.ext ?_)
  show t.val * 1024 + p.val = win0_9.index t (0 : Fin 2) * 1024 + 1 * p.val
  rw [e0]; omega

/-- The V̇ window's write-back. -/
theorem flushed_vdot (c : Dev nD) (t : Fin cfg0.N) :
    (dats m 0 c).flushed 10 t = ((cfg0.win 10).blk t).view.read (Elt Ideal) (Gvdot m c) := by
  obtain ⟨-, -, -, -, -, -, -, -, -, -, -, -, -, -, -, -, -, -, -, -, e0, e1⟩ := idx_facts t
  show (cfg0.win 10).cut (grid0.coords t) ((dats m 0 c).after 10 t) = _
  rw [after0_10]
  unfold out0_10
  rw [View.canon_unit_zero hz]
  simp only [View.ld_unit_zero (S := S1024x2) hz, View.ld_unit_zero (S := S512x2) hz, View.ld_unit_zero (S := S1x512) hz,
    View.ld_unit_zero (S := S512x512) hz, View.ld_unit_zero (S := S1x2) hz]
  funext y
  obtain ⟨p, u, rfl⟩ : ∃ (p : Fin 1024) (u : Fin 1), y = ix2 p u := ⟨y 0, y 1, eq_ix2 y⟩
  rw [View.read_apply]
  refine (Cert.Agree.vdot_agree (iblk m c 0 t) (iblk m c 1 t) (iblk m c 2 t) (iblk m c 3 t) (iblk m c 4 t) (iblk m c 5 t)
    (iblk m c 6 t) (A0 m c) (A1 m c) (A2 m c) (A3 m c) (A4 m c) (A5 m c) p (rowOf t p) (blk_state m c t p) (blk_w1 m c t)
    (blk_b1 m c t) (blk_w2 m c t) (blk_w2t m c t) (blk_b2 m c t) (blk_gain m c t) u).trans ?_
  refine congrArg (Gvdot m c) (funext fun a => Fin.ext ?_)
  match a with
  | ⟨0, _⟩ => show t.val * 1024 + p.val = win0_10.index t (0 : Fin 2) * 1024 + 1 * p.val; rw [e0]; omega
  | ⟨1, _⟩ => show u.val = win0_10.index t (1 : Fin 2) * 1 + 1 * u.val; rw [e1]; omega

/-- The point whose blocks hold row r: r / 1024. -/
theorem point_of (i : S65536x1.Idx) : ∃ t : Fin cfg0.N, t.val = (i 0).val / 1024 :=
  ⟨⟨(i 0).val / 1024, by have h : (i 0).val < 65536 := (i 0).isLt; have hN : cfg0.N = 64 := N_0; omega⟩, rfl⟩

/-- The 64 blocks of an output window tile its array. -/
theorem cover_ctrl (i : S65536x1.Idx) :
    ∃ t : Fin cfg0.N, (cfg0.win 7).flush t = true ∧ i ∈ ((cfg0.win 7).blk t).view.set := by
  obtain ⟨t, ht⟩ := point_of i
  obtain ⟨-, -, -, -, -, -, -, -, -, -, -, -, -, -, e0, e1, -⟩ := idx_facts t
  have h0 : (i 0).val < 65536 := (i 0).isLt
  have h1 : (i 1).val < 1 := (i 1).isLt
  refine ⟨t, flush0_7 t, ?_⟩
  show i ∈ ((View.whole main_v4_0).slice (win0_7.rect t)).set
  rw [View.set_slice_whole, Rect.mem_set_unit]
  intro a
  match a with
  | ⟨0, _⟩ => show win0_7.index t (0 : Fin 2) * 1024 ≤ (i 0).val ∧ (i 0).val < win0_7.index t (0 : Fin 2) * 1024 + 1024; rw [e0]; omega
  | ⟨1, _⟩ => show win0_7.index t (1 : Fin 2) * 1 ≤ (i 1).val ∧ (i 1).val < win0_7.index t (1 : Fin 2) * 1 + 1; rw [e1]; omega
theorem cover_relax (i : S65536x1.Idx) :
    ∃ t : Fin cfg0.N, (cfg0.win 8).flush t = true ∧ i ∈ ((cfg0.win 8).blk t).view.set := by
  obtain ⟨t, ht⟩ := point_of i
  obtain ⟨-, -, -, -, -, -, -, -, -, -, -, -, -, -, -, -, e0, e1, -⟩ := idx_facts t
  have h0 : (i 0).val < 65536 := (i 0).isLt
  have h1 : (i 1).val < 1 := (i 1).isLt
  refine ⟨t, flush0_8 t, ?_⟩
  show i ∈ ((View.whole main_v4_1).slice (win0_8.rect t)).set
  rw [View.set_slice_whole, Rect.mem_set_unit]
  intro a
  match a with
  | ⟨0, _⟩ => show win0_8.index t (0 : Fin 2) * 1024 ≤ (i 0).val ∧ (i 0).val < win0_8.index t (0 : Fin 2) * 1024 + 1024; rw [e0]; omega
  | ⟨1, _⟩ => show win0_8.index t (1 : Fin 2) * 1 ≤ (i 1).val ∧ (i 1).val < win0_8.index t (1 : Fin 2) * 1 + 1; rw [e1]; omega
theorem cover_lyap (i : S65536x1.Idx) :
    ∃ t : Fin cfg0.N, (cfg0.win 9).flush t = true ∧ i ∈ ((cfg0.win 9).blk t).view.set := by
  obtain ⟨t, ht⟩ := point_of i
  obtain ⟨-, -, -, -, -, -, -, -, -, -, -, -, -, -, -, -, -, -, e0, e1, -⟩ := idx_facts t
  have h0 : (i 0).val < 65536 := (i 0).isLt
  have h1 : (i 1).val < 1 := (i 1).isLt
  refine ⟨t, flush0_9 t, ?_⟩
  show i ∈ ((View.whole main_v4_2).slice (win0_9.rect t)).set
  rw [View.set_slice_whole, Rect.mem_set_unit]
  intro a
  match a with
  | ⟨0, _⟩ => show win0_9.index t (0 : Fin 2) * 1024 ≤ (i 0).val ∧ (i 0).val < win0_9.index t (0 : Fin 2) * 1024 + 1024; rw [e0]; omega
  | ⟨1, _⟩ => show win0_9.index t (1 : Fin 2) * 1 ≤ (i 1).val ∧ (i 1).val < win0_9.index t (1 : Fin 2) * 1 + 1; rw [e1]; omega
theorem cover_vdot (i : S65536x1.Idx) :
    ∃ t : Fin cfg0.N, (cfg0.win 10).flush t = true ∧ i ∈ ((cfg0.win 10).blk t).view.set := by
  obtain ⟨t, ht⟩ := point_of i
  obtain ⟨-, -, -, -, -, -, -, -, -, -, -, -, -, -, -, -, -, -, -, -, e0, e1⟩ := idx_facts t
  have h0 : (i 0).val < 65536 := (i 0).isLt
  have h1 : (i 1).val < 1 := (i 1).isLt
  refine ⟨t, flush0_10 t, ?_⟩
  show i ∈ ((View.whole main_v4_3).slice (win0_10.rect t)).set
  rw [View.set_slice_whole, Rect.mem_set_unit]
  intro a
  match a with
  | ⟨0, _⟩ => show win0_10.index t (0 : Fin 2) * 1024 ≤ (i 0).val ∧ (i 0).val < win0_10.index t (0 : Fin 2) * 1024 + 1024; rw [e0]; omega
  | ⟨1, _⟩ => show win0_10.index t (1 : Fin 2) * 1 ≤ (i 1).val ∧ (i 1).val < win0_10.index t (1 : Fin 2) * 1 + 1; rw [e1]; omega

/-- The output arrays after the run. -/
theorem final_ctrl (c : Dev nD) : (dats m 0 c).arrAt 7 cfg0.N = Gctrl m c :=
  (dats m 0 c).arrAt_eq_of_cover 7 (Gctrl m c) (fun t _ => flushed_ctrl m c t) cover_ctrl
theorem final_relax (c : Dev nD) : (dats m 0 c).arrAt 8 cfg0.N = Grelax m c :=
  (dats m 0 c).arrAt_eq_of_cover 8 (Grelax m c) (fun t _ => flushed_relax m c t) cover_relax
theorem final_lyap (c : Dev nD) : (dats m 0 c).arrAt 9 cfg0.N = Glyap m c :=
  (dats m 0 c).arrAt_eq_of_cover 9 (Glyap m c) (fun t _ => flushed_lyap m c t) cover_lyap
theorem final_vdot (c : Dev nD) : (dats m 0 c).arrAt 10 cfg0.N = Gvdot m c :=
  (dats m 0 c).arrAt_eq_of_cover 10 (Gvdot m c) (fun t _ => flushed_vdot m c t) cover_vdot

/-! ## The host line after the call, and the run -/

/-- The line after the call flattens the Lyapunov column: the [65536] result is the reference's. -/
theorem tail_lyap (c : Dev nD) :
    Pipeline.afterTail₀ cfgs (dats m) 0 (V0 m) [hostOps1] c main_v5
      = val_main_v15 (F := Ideal) (A0 m c) (A1 m c) (A2 m c) (A3 m c) (A4 m c) := by
  unfold Pipeline.afterTail₀
  show StableHlo.after hostOps1 _ (Proc.devRef .tc main_v5) = _
  after_results
  refine (congrArg (fun z => shapeCast S65536 z shapeCasts_S65536x1_S65536)
    ((Pipeline.withArrays_arr spec0 launch0.win.arr_inj c _ _ 9).trans (final_lyap m c))).trans ?_
  funext j
  obtain ⟨i, rfl⟩ : ∃ i : Fin 65536, j = ix1 i := ⟨j 0, eq_ix1 j⟩
  exact shapeCast_a1_a_apply (Glyap m c) shapeCasts_S65536x1_S65536 i

/-- The kernel's run, read: every weakly fair execution ends with the four results at the reference's stage functions
    of the argument arrays, and the arguments unchanged. -/
theorem run : θ_run defs (onTc (τ := τ) (main (F := Ideal))) ⟨m, fun _ => 0, ρ⟩ fun r => ∀ c : Dev nD,
      r.2.mem ((c.tc : Thread nD τ).loc main_v4_0) = val_main_v67 (F := Ideal) (A0 m c) (A1 m c) (A2 m c) (A3 m c) (A4 m c) (A5 m c)
      ∧ r.2.mem ((c.tc : Thread nD τ).loc main_v4_1) = val_main_v69 (F := Ideal) (A0 m c) (A1 m c) (A2 m c) (A3 m c) (A4 m c) (A5 m c)
      ∧ r.2.mem ((c.tc : Thread nD τ).loc main_v5) = val_main_v15 (F := Ideal) (A0 m c) (A1 m c) (A2 m c) (A3 m c) (A4 m c)
      ∧ r.2.mem ((c.tc : Thread nD τ).loc main_v4_3) = val_main_v73 (F := Ideal) (A0 m c) (A1 m c) (A2 m c) (A3 m c) (A4 m c) (A5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1 7).trans (final_ctrl m c),
      ((h c).1 8).trans (final_relax m c),
      ((h c).2 main_v5 (Pipeline.mem_restRefs_of main_v5 (by decide) (by decide))).trans (tail_lyap m c),
      ((h c).1 10).trans (final_vdot m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 6).trans (((dats m 0 c).arrAt_in 6 rfl _).trans ((A_eq m c 6).trans (V_main_arg5 m c)))⟩)
    (run_main m ρ)

end Cert.KernelIdeal.Blocks

end
-- ==== Proof.lean ====
/-
  The claim: the Pallas kernel that evaluates a two-layer tanh network, its gradient by the chain rule, and the
  closed-form solution of a one-constraint quadratic program over a batch of 65536 two-dimensional states, against
  its jnp reference, over the extended reals.

  Both programs compute, for every batch row independently, the same row function (Proof/Spec.lean): the hidden
  layers a₁ = tanh(W₁x + b₁), a₂ = tanh(W₂a₁ + b₂), the value V = ½·Σ a₂², its gradient
  ∇V = W₁ᵀ((W₂ᵀ(a₂⊙(1−a₂²)))⊙(1−a₁²)), and from ∇V, V, x and the gain K the multiplier
  μ = max(L_fV + L_gV·u₀ + V, 0)/(L_gV² + ε), the control u = u₀ − μ·L_gV, the relaxation μ/20 and V̇.
  The kernel does it 1024 rows at a time over a grid of 64 points, holds the second layer's matrix in two
  narrower-format copies (a change of format is the identity on the extended reals), and negates the nominal control
  as 0 − K·x where the reference negates it; 0 − y = −y holds on every extended real, so no step of the proof
  needs the inputs to be finite. Proof/KerRows.lean reads the kernel's body at a block row, Proof/RefRows.lean the
  reference's stages at an array row, Proof/Agree.lean joins them, and Proof/Blocks.lean carries the blocks to
  the whole output arrays and through the host line that flattens V.
-/
import proofs.«155033_j2001454760659_1_alg».proof.Defs
import proofs.«155033_j2001454760659_1_alg».proof.Proof.Gen.Kernel
import proofs.«155033_j2001454760659_1_alg».proof.Proof.Gen.Kernel.Skeleton
import proofs.«155033_j2001454760659_1_alg».proof.Proof.Gen.Kernel.Launch
import proofs.«155033_j2001454760659_1_alg».proof.Proof.Gen.Kernel.Points
import proofs.«155033_j2001454760659_1_alg».proof.Proof.Gen.Kernel.Frame
import proofs.«155033_j2001454760659_1_alg».proof.Proof.Gen.KernelIdeal
import proofs.«155033_j2001454760659_1_alg».proof.Proof.Gen.KernelIdeal.Skeleton
import proofs.«155033_j2001454760659_1_alg».proof.Proof.Gen.KernelIdeal.Launch
import proofs.«155033_j2001454760659_1_alg».proof.Proof.Gen.KernelIdeal.Points
import proofs.«155033_j2001454760659_1_alg».proof.Proof.Gen.KernelIdeal.Frame
import proofs.«155033_j2001454760659_1_alg».proof.Proof.Gen.ReferenceIdeal
import proofs.«155033_j2001454760659_1_alg».proof.Proof.Gen.Pre_finite_inputs
import proofs.«155033_j2001454760659_1_alg».proof.Proof.Gen.ReferenceIdeal.Run
import proofs.«155033_j2001454760659_1_alg».proof.Proof.Gen.ReferenceIdeal.Read
import proofs.«155033_j2001454760659_1_alg».proof.Proof.Blocks
import Idealize.ShloMosaic.Adequacy
import Idealize.ShloMosaic.Init

noncomputable section

namespace Cert.Proof

open Idealize.ShloMosaic Idealize.SL.Sem

/-- The two idealized programs, run from memories agreeing on the arguments, end with equal results: each result array
    of the kernel ends at the reference's stage function of the argument arrays (Proof/Blocks.lean), and the
    reference's run ends each result at the same function of its own, equal, arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, _, _, Cert.KernelIdeal.Blocks.run m ρ, ?_⟩
  refine (θ_run Cert.ReferenceIdeal.defs _ _).mono (fun _ h c => ?_) (Cert.ReferenceIdeal.Value.run (F := Ideal) m' ρ')
  obtain ⟨h0, h1, h2, h3, h4, h5⟩ := hagree c
  obtain ⟨r0, r1, r2, r3, rargs⟩ := h c
  refine ⟨?_, ?_, ?_, ?_, rargs⟩
  · rw [r0, Cert.ReferenceIdeal.Read.val_main_v67_eq, h0, h1, h2, h3, h4, h5]
  · rw [r1, Cert.ReferenceIdeal.Read.val_main_v69_eq, h0, h1, h2, h3, h4, h5]
  · rw [r2, Cert.ReferenceIdeal.Read.val_main_v15_eq, h0, h1, h2, h3, h4]
  · rw [r3, Cert.ReferenceIdeal.Read.val_main_v73_eq, h0, h1, h2, h3, h4, h5]

/-- The three frames are the generated ones (the reference's: its generated run with the results dropped); the ideal
    pass rewrote nothing, so the kernel's idealization is its own text. -/
theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2.2.2)
    (Cert.ReferenceIdeal.Value.run (F := Ideal) m ρ),
  trivial,
  algebraic⟩

end Cert.Proof

end
